-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) (main_arg6 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S2x64 : Shape := ⟨2, ![2, 64]⟩
abbrev S10000x64 : Shape := ⟨2, ![10000, 64]⟩

abbrev nBuf : Space → Nat
  | .hbm => 65
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S_, .f32⟩
  | .hbm, ⟨25, _⟩ => ⟨S1200000, .f32⟩
  | .hbm, ⟨26, _⟩ => ⟨S_, .f32⟩
  | .hbm, ⟨27, _⟩ => ⟨S100000, .f32⟩
  | .hbm, ⟨28, _⟩ => ⟨S1200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S64x64, .bf16⟩
  | .hbm, ⟨38, _⟩ => ⟨S1x64, .f32⟩
  | .hbm, ⟨39, _⟩ => ⟨S100000x64, .f32⟩
  | .hbm, ⟨40, _⟩ => ⟨S2x64, .f32⟩
  | .hbm, ⟨41, _⟩ => ⟨S1x64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S64x64, .bf16⟩
  | .hbm, ⟨64, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S2x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S64x64, .bf16⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bitsLt_bf16_f32 : FTy.bits .bf16 < FTy.bits .f32
  shapeCasts_S64_S1x64 : S64.ShapeCasts S1x64
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  inb_S2x64_S1x64_0_0 : ∀ a, (![0, 0] : Fin 2 → Nat) a + S1x64.size a ≤ S2x64.size a
  inb_S2x64_S1x64_1_0 : ∀ a, (![1, 0] : Fin 2 → Nat) a + S1x64.size a ≤ S2x64.size a
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64_S1x64_1_0 : S2x64.Slices ![1, 0] S1x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S2x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S_, .f32⟩
  | .hbm, ⟨25, _⟩ => ⟨S1200000, .f32⟩
  | .hbm, ⟨26, _⟩ => ⟨S_, .f32⟩
  | .hbm, ⟨27, _⟩ => ⟨S100000, .f32⟩
  | .hbm, ⟨28, _⟩ => ⟨S1200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics both programs compute, stated once over plain index types, at the extended reals.

  A node's row is its own features plus the mean of its in-neighbours' (the aggregate A, shared by both programs and never
  opened here); H = (X + A) Wᵀ + b is the linear layer; every column of H is normalised by its mean and variance over
  the 100000 rows, scaled and shifted; the result is gated by the logistic of its own product with C.

  The two programs differ in how they spell the normalisation: one computes the variance as E[h²] − E[h]² and folds the
  scale and the shift into two row vectors (`hbnK`), the other computes E[(h − μ)²] and normalises directly (`hbnR`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of 100000 rows and 64 columns, as a function of its two coordinates. -/
abbrev Rows := Fin 100000 → Fin 64 → EReal
/-- A 64 × 64 matrix. -/
abbrev Sq := Fin 64 → Fin 64 → EReal
/-- A row vector of 64 entries. -/
abbrev Row := Fin 64 → EReal

/-- The word both programs divide the column sums by: the number of rows, 100000. -/
def nW : EReal := Ideal.ofBits .f32 0x47C35000#32
/-- The word both programs add to the variance before the reciprocal square root. -/
def epsW : EReal := Ideal.ofBits .f32 0x3727C5AC#32

/-- The linear layer: `H r c = Σₖ (X r k + A r k) · Wt k c + b c`. -/
def lin (X A : Rows) (Wt : Sq) (b : Row) : Rows :=
  fun r c => (∑ k : Fin 64, (X r k + A r k) * Wt k c) + b c

/-- A column's mean over the rows. -/
def mean (H : Rows) (c : Fin 64) : EReal := Ideal.div (∑ r : Fin 100000, H r c) nW

/-- A column's variance as the mean of the squares less the square of the mean. -/
def varK (H : Rows) (c : Fin 64) : EReal :=
  Ideal.div (∑ r : Fin 100000, H r c * H r c) nW - mean H c * mean H c

/-- A column's variance as the mean of the squared deviations from the mean. -/
def varR (H : Rows) (c : Fin 64) : EReal :=
  Ideal.div (∑ r : Fin 100000, (H r c - mean H c) * (H r c - mean H c)) nW

/-- The normalised layer with the scale `γ · s` and the shift `β − μ γ s` folded first (`s` the reciprocal root of
    `varK + ε`). -/
def hbnK (H : Rows) (γ β : Row) : Rows :=
  fun r c => H r c * (γ c * Ideal.rsqrt (varK H c + epsW))
    + (β c - (mean H c * γ c) * Ideal.rsqrt (varK H c + epsW))

/-- The normalised layer spelled directly: `(h − μ) · s · γ + β` (`s` the reciprocal root of `varR + ε`). -/
def hbnR (H : Rows) (γ β : Row) : Rows :=
  fun r c => ((H r c - mean H c) * Ideal.rsqrt (varR H c + epsW)) * γ c + β c

/-- The gate: `σ(Σₖ Z r k · C k c) · Z r c`. -/
def gate (Z : Rows) (C : Sq) : Rows :=
  fun r c => Ideal.logistic (∑ k : Fin 64, Z r k * C k c) * Z r c

/-- An extended real that is a real number. -/
def IsReal (x : EReal) : Prop := ∃ r : ℝ, x = (r : EReal)

end Cert.Spec

end
-- ==== Proof.Payloads.lean ====
/-
  The two kernel bodies' arithmetic read at an index, at the extended reals.

  The first body's stored block is, at row p and column q, the contraction over 64 of (x + a) against the transposed
  weights plus the bias; its two accumulator rows gain the block's column sums and the column sums of its squares.
  The second body's stored block is the logistic gate of the scaled and shifted block against the 64 × 64 matrix.
-/
import proofs.«160966_j59407987638626_1_alg».proof.Proof.Gen.KernelIdeal.Skeleton
import proofs.«160966_j59407987638626_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The 10000 × 64 by 64 × 64 product at an index

The product's record contracts the left operand's axis 1 against the right operand's axis 0; its left index at output
(p, q) and contraction coordinate k is (p, k), its right index (k, q). -/

theorem lhs_dot_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
theorem rhs_dot_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
theorem rhs_dot_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero block, at (p, q): the sum over k of the left operand at (p, k) times the right at (k, q). -/
theorem matmul_zero_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## A column sum at an index

The sum over the 10000 rows of a block, read at column q, is the sum over p of the block at (p, q); cast to one row it
reads the same at (0, q). -/

theorem colsum_apply (src : FVec Ideal S10000x64 .f32) (hacc : (0x00000000#32 : BitVec 32) = 0x00000000#32) (q : Fin 64) :
    multiReduction (F := Ideal) .add [0] S64 src 0x00000000#32 reduces_S10000x64_S64 (.inl rfl) hacc (ix1 q)
      = ∑ p : Fin 10000, src (ix2 p q) := by
  refine (Ideal.multiReduction_add_single src 0x00000000#32 reduces_S10000x64_S64 (.inl rfl) hacc (ix1 q)).trans ?_
  refine Finset.sum_congr rfl fun k _ => congrArg src (funext fun a => Fin.ext ?_)
  match a with
  | ⟨0, _⟩ => rfl
  | ⟨1, _⟩ => rfl

theorem colsum_row_apply (src : FVec Ideal S10000x64 .f32) (hacc : (0x00000000#32 : BitVec 32) = 0x00000000#32) (q : Fin 64) :
    shapeCast S1x64 (multiReduction (F := Ideal) .add [0] S64 src 0x00000000#32 reduces_S10000x64_S64 (.inl rfl) hacc)
        shapeCasts_S64_S1x64 (ix2 0 q)
      = ∑ p : Fin 10000, src (ix2 p q) :=
  (shapeCast_a_1a_apply _ shapeCasts_S64_S1x64 0 q).trans (colsum_apply src hacc q)

/-! ## The payloads -/

/-- The reset block is zero everywhere. -/
theorem pay1_apply (j : S2x64.Idx) : k0_pay1 (F := Ideal) j = 0 := by
  unfold k0_pay1
  show Ideal.ofBits .f32 0x00000000#32 = 0
  exact Ideal.ofBits_zero_f32

/-- The linear layer's block at (p, q). -/
theorem pay2_apply (v3 v4 : Vec Ideal S10000x64 .f32) (v8 : Vec Ideal S64x64 .bf16) (v11 : Vec Ideal S1x64 .f32)
    (p : Fin 10000) (q : Fin 64) :
    k0_pay2 (F := Ideal) v3 v4 v8 v11 (ix2 p q)
      = (∑ k : Fin 64, (v3 (ix2 p k) + v4 (ix2 p k)) * v8 (ix2 k q)) + v11 (ix2 0 q) := by
  unfold k0_pay2
  rw [shapeCast_self v4, shapeCast_self v8, shapeCast_self v11]
  refine (addf_apply _ _ (ix2 p q)).trans ?_
  refine congrArg₂ (· + ·) ?_ ?_
  · refine (matmul_zero_apply _ _ p q).trans ?_
    rfl
  · exact broadcastTo_1b_ab_apply v11 _ p q

/-- The first accumulator row gains the block's column sums. -/
theorem pay3_apply (v3 v4 : Vec Ideal S10000x64 .f32) (v8 : Vec Ideal S64x64 .bf16) (v11 : Vec Ideal S1x64 .f32)
    (v21 : Vec Ideal S1x64 .f32) (q : Fin 64) :
    k0_pay3 (F := Ideal) v3 v4 v8 v11 v21 (ix2 0 q)
      = v21 (ix2 0 q) + ∑ p : Fin 10000, k0_pay2 (F := Ideal) v3 v4 v8 v11 (ix2 p q) := by
  unfold k0_pay3
  rw [shapeCast_self v21]
  refine (addf_apply _ _ (ix2 0 q)).trans ?_
  exact congrArg (v21 (ix2 0 q) + ·) (colsum_row_apply _ rfl q)

/-- The second accumulator row gains the column sums of the block's squares. -/
theorem pay4_apply (v3 v4 : Vec Ideal S10000x64 .f32) (v8 : Vec Ideal S64x64 .bf16) (v11 : Vec Ideal S1x64 .f32)
    (v25 : Vec Ideal S1x64 .f32) (q : Fin 64) :
    k0_pay4 (F := Ideal) v3 v4 v8 v11 v25 (ix2 0 q)
      = v25 (ix2 0 q) + ∑ p : Fin 10000,
          k0_pay2 (F := Ideal) v3 v4 v8 v11 (ix2 p q) * k0_pay2 (F := Ideal) v3 v4 v8 v11 (ix2 p q) := by
  unfold k0_pay4
  rw [shapeCast_self v25]
  refine (addf_apply _ _ (ix2 0 q)).trans ?_
  refine congrArg (v25 (ix2 0 q) + ·) ((colsum_row_apply _ rfl q).trans ?_)
  rfl

/-- A block scaled by one row and shifted by another, at (p, k). -/
theorem affine_apply (h : FVec Ideal S10000x64 .f32) (a b : FVec Ideal S1x64 .f32) (p : Fin 10000) (k : Fin 64) :
    addf (mulf h (broadcastTo S10000x64 a broadcasts_S1x64_S10000x64)) (broadcastTo S10000x64 b broadcasts_S1x64_S10000x64)
        (ix2 p k)
      = h (ix2 p k) * a (ix2 0 k) + b (ix2 0 k) := by
  refine (addf_apply _ _ (ix2 p k)).trans ?_
  exact congrArg₂ (· + ·)
    ((mulf_apply _ _ (ix2 p k)).trans (congrArg (h (ix2 p k) * ·) (broadcastTo_1b_ab_apply a _ p k)))
    (broadcastTo_1b_ab_apply b _ p k)

/-- The gated block at (p, q): with z k = h p k · scale k + shift k, it is σ(Σₖ z k · C k q) · z q. -/
theorem k1_pay1_apply (v0 : Vec Ideal S10000x64 .f32) (v2 v6 : Vec Ideal S1x64 .f32) (v11 : Vec Ideal S64x64 .bf16)
    (p : Fin 10000) (q : Fin 64) :
    k1_pay1 (F := Ideal) v0 v2 v6 v11 (ix2 p q)
      = Ideal.logistic (∑ k : Fin 64, (v0 (ix2 p k) * v2 (ix2 0 k) + v6 (ix2 0 k)) * v11 (ix2 k q))
          * (v0 (ix2 p q) * v2 (ix2 0 q) + v6 (ix2 0 q)) := by
  unfold k1_pay1
  rw [shapeCast_self v0, shapeCast_self v2, shapeCast_self v6, shapeCast_self v11]
  refine (mulf_apply _ _ (ix2 p q)).trans ?_
  refine congrArg₂ (· * ·) ?_ (affine_apply v0 v2 v6 p q)
  show Ideal.logistic _ = _
  refine congrArg Ideal.logistic ((matmul_zero_apply _ _ p q).trans (Finset.sum_congr rfl fun k _ => ?_))
  exact congrArg (· * v11 (ix2 k q)) (affine_apply v0 v2 v6 p k)

end Cert.KernelIdeal.Pay

end
-- ==== Proof.Region0.lean ====
/-
  What the first kernel region leaves in its two result arrays.

  The grid's ten points each take a block of 10000 rows of x and of the aggregate, the transposed weights and the bias
  row; each writes the linear layer's block and adds the block's column sums, and the column sums of its squares, to a
  2 × 64 accumulator that the first point resets and that is written back once, after the last point. So the first
  array is the linear layer H, and the accumulator's two rows are the sums over all 100000 rows of H and of H².
-/
import proofs.«160966_j59407987638626_1_alg».proof.Proof.Gen.KernelIdeal.Frame
import proofs.«160966_j59407987638626_1_alg».proof.Proof.Payloads
import proofs.«160966_j59407987638626_1_alg».proof.Proof.Spec
import Idealize.ShloMosaic.Lib.Pipeline.Value
import Idealize.ShloMosaic.Lib.ValueIdx
import Idealize.ShloMosaic.Lib.Tactic
import Mathlib.Algebra.BigOperators.Fin
import Mathlib.Data.Fintype.BigOperators
import Mathlib.Logic.Equiv.Fin.Basic

set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The zero offsets, spelt as a function. -/
theorem hz : (![0, 0] : Fin 2 → Nat) = fun _ => 0 := funext fun a => by fin_cases a <;> rfl

/-! ## What each case leaves in the two output blocks -/

/-- Case A leaves the linear layer's block in the first output. -/
theorem out_A_4 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : cond0_0 i) (x0 x1 : Vec F S10000x64 .f32) (x2 : Vec F S64x64 .bf16) (x3 : Vec F S1x64 .f32) :
    out0_A_4 c i a1 h1 a2 h2 a3 h3 a4 h4 a5 h5 a6 h6 hc x0 x1 x2 x3 = k0_pay2 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S10000x64) hz, View.ld_unit_zero (S := S64x64) hz, View.ld_unit_zero (S := S1x64) hz]

/-- Case B leaves the linear layer's block in the first output. -/
theorem out_B_4 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : ¬cond0_0 i) (x0 x1 : Vec F S10000x64 .f32) (x2 : Vec F S64x64 .bf16) (x3 : Vec F S1x64 .f32) (xo5 : Vec F S2x64 .f32) :
    out0_B_4 c i a1 h1 a2 h2 a3 h3 a4 h4 a5 h5 a6 h6 hc x0 x1 x2 x3 xo5 = k0_pay2 x0 x1 x2 x3 := by
  unfold out0_B_4
  rw [View.read_writes_eq_canon _ _ _ (cover0_B_4 c i a1 h1 a2 h2 a3 h3 a4 h4 a5 h5 a6 h6 hc x0 x1 x2 x3 xo5)]
  unfold kernelRun0_B
  dsimp only
  sl_unfold_words
  rw [View.canon_unit_zero hz]
  simp only [View.readAt_eq_ld, h1.read_unread, h2.read_unread, h3.read_unread, h4.read_unread,
    View.ld_unit_zero (S := S10000x64) hz, View.ld_unit_zero (S := S64x64) hz, View.ld_unit_zero (S := S1x64) hz]

/-! ### The two rows of the 2 × 64 accumulator -/

/-- Row 0 of the accumulator, as a rectangle of it. -/
abbrev row0 : Rect S2x64 := Rect.unit (s := S2x64) ![0, 0] S1x64.size inb_S2x64_S1x64_0_0
/-- Row 1 of the accumulator. -/
abbrev row1 : Rect S2x64 := Rect.unit (s := S2x64) ![1, 0] S1x64.size inb_S2x64_S1x64_1_0
/-- The whole accumulator. -/
abbrev rows : Rect S2x64 := Rect.unit (s := S2x64) ![0, 0] S2x64.size inb_S2x64_S2x64_0_0

/-- Column q of row 0 sits at (0, q). -/
theorem row0_idx (q : Fin 64) : row0.idx (ix2 (0 : Fin 1) q) = ix2 (0 : Fin 2) q := by
  funext a; apply Fin.ext
  match a with
  | ⟨0, _⟩ => show 0 + 1 * 0 = 0; rfl
  | ⟨1, _⟩ => show 0 + 1 * q.val = q.val; omega

/-- Column q of row 1 sits at (1, q). -/
theorem row1_idx (q : Fin 64) : row1.idx (ix2 (0 : Fin 1) q) = ix2 (1 : Fin 2) q := by
  funext a; apply Fin.ext
  match a with
  | ⟨0, _⟩ => show 1 + 1 * 0 = 1; rfl
  | ⟨1, _⟩ => show 0 + 1 * q.val = q.val; omega

section Rows
variable {Val : EltTy → Type} [∀ e, Nonempty (Val e)] {e : EltTy}

/-- Under a newest piece that is row 1, the contents at (1, q) are its payload at q. -/
theorem canon_row1 (w1 : S1x64.Idx → Val e) (L : List (View.Piece Val S2x64 e)) (q : Fin 64) :
    View.canon ((⟨row1, w1⟩ : View.Piece Val S2x64 e) :: L) (ix2 (1 : Fin 2) q) = w1 (ix2 (0 : Fin 1) q) :=
  (congrArg (View.canon ((⟨row1, w1⟩ : View.Piece Val S2x64 e) :: L)) (row1_idx q).symm).trans
    (View.canon_cons_emb row1 w1 L (ix2 (0 : Fin 1) q))

/-- Under a newest piece that is row 1 over one that is row 0, the contents at (0, q) are the row-0 payload at q. -/
theorem canon_row0 (w1 w0 : S1x64.Idx → Val e) (L : List (View.Piece Val S2x64 e)) (q : Fin 64) :
    View.canon ((⟨row1, w1⟩ : View.Piece Val S2x64 e) :: (⟨row0, w0⟩ : View.Piece Val S2x64 e) :: L) (ix2 (0 : Fin 2) q)
      = w0 (ix2 (0 : Fin 1) q) := by
  have hne : ix2 (0 : Fin 2) q ∉ (⟨row1, w1⟩ : View.Piece Val S2x64 e).1.set := fun hm => by
    have h := (Rect.mem_set_unit (s := S2x64) (off := ![1, 0]) (size := S1x64.size) (inb := inb_S2x64_S1x64_1_0)
      (i := ix2 (0 : Fin 2) q)).mp hm 0
    have h' : 1 ≤ 0 := h.1
    omega
  rw [View.canon_cons_of_not_mem _ _ hne]
  exact (congrArg (View.canon ((⟨row0, w0⟩ : View.Piece Val S2x64 e) :: L)) (row0_idx q).symm).trans
    (View.canon_cons_emb row0 w0 L (ix2 (0 : Fin 1) q))

/-- A load of a row of what one store of the whole accumulator left reads that row of its payload. -/
theorem readCov_rows (sig' : RefSig) (κ : Kind) (sp : Space) (v : View sig' κ sp S2x64 e) (P : S2x64.Idx → Val e) (r : Rect S2x64) :
    v.readCov [(⟨rows, P⟩ : View.Piece Val S2x64 e)] r.toLoadRect = View.ld P r := by
  rw [View.readCov_eq_canon', View.canon_unit_zero hz]

/-- A load of row 1 passes over a newest piece that is row 0. -/
theorem readCov_row1_over_row0 (sig' : RefSig) (κ : Kind) (sp : Space) (v : View sig' κ sp S2x64 e) (w0 : S1x64.Idx → Val e)
    (L : List (View.Piece Val S2x64 e)) :
    v.readCov ((⟨row0, w0⟩ : View.Piece Val S2x64 e) :: L) row1.toLoadRect = v.readCov L row1.toLoadRect :=
  View.readCov_cons_of_disjoint v (⟨row0, w0⟩ : View.Piece Val S2x64 e) L row1.toLoadRect
    (Rect.unit_disjoint (inb := inb_S2x64_S1x64_0_0) (inb' := inb_S2x64_S1x64_1_0) 0 (Or.inl (by decide)))

end Rows

/-- Case B leaves in the accumulator: row 1 the second update of the row 1 it found, row 0 the first update of the row 0
    it found. -/
theorem out_B_5 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : ¬cond0_0 i) (x0 x1 : Vec F S10000x64 .f32) (x2 : Vec F S64x64 .bf16) (x3 : Vec F S1x64 .f32) (xo5 : Vec F S2x64 .f32) :
    out0_B_5 c i a1 h1 a2 h2 a3 h3 a4 h4 a5 h5 a6 h6 hc x0 x1 x2 x3 xo5
      = View.canon [(⟨row1, k0_pay4 x0 x1 x2 x3 (View.ld xo5 row1)⟩ : View.Piece (Elt F) S2x64 .f32),
          (⟨row0, k0_pay3 x0 x1 x2 x3 (View.ld xo5 row0)⟩ : View.Piece (Elt F) S2x64 .f32)] := by
  unfold out0_B_5
  rw [View.read_writes_eq_canon _ _ _ (cover0_B_5 c i a1 h1 a2 h2 a3 h3 a4 h4 a5 h5 a6 h6 hc x0 x1 x2 x3 xo5)]
  unfold kernelRun0_B
  dsimp only
  sl_unfold_words
  simp only [View.readAt_eq_ld, h1.read_unread, h2.read_unread, h3.read_unread, h4.read_unread, h6.read_unread,
    View.ld_unit_zero (S := S10000x64) hz, View.ld_unit_zero (S := S64x64) hz, View.ld_unit_zero (S := S1x64) hz]

/-- Case A leaves the same two updates, of the rows of the zero block it stored first. -/
theorem out_A_5 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : cond0_0 i) (x0 x1 : Vec F S10000x64 .f32) (x2 : Vec F S64x64 .bf16) (x3 : Vec F S1x64 .f32) :
    out0_A_5 c i a1 h1 a2 h2 a3 h3 a4 h4 a5 h5 a6 h6 hc x0 x1 x2 x3
      = View.canon [(⟨row1, k0_pay4 x0 x1 x2 x3 (View.ld k0_pay1 row1)⟩ : View.Piece (Elt F) S2x64 .f32),
          (⟨row0, k0_pay3 x0 x1 x2 x3 (View.ld k0_pay1 row0)⟩ : View.Piece (Elt F) S2x64 .f32),
          (⟨rows, k0_pay1⟩ : View.Piece (Elt F) S2x64 .f32)] := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread,
    View.ld_unit_zero (S := S10000x64) hz, View.ld_unit_zero (S := S64x64) hz, View.ld_unit_zero (S := S1x64) hz]
  rw [readCov_row1_over_row0, readCov_rows, readCov_rows]

/-! ## The accumulator's two rows after each case, at a column, over the extended reals -/

/-- Case B adds the block's column sum to the row 0 it found. -/
theorem out_B_5_row0 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : ¬cond0_0 i) (x0 x1 : Vec Ideal S10000x64 .f32) (x2 : Vec Ideal S64x64 .bf16) (x3 : Vec Ideal S1x64 .f32) (xo5 : Vec Ideal S2x64 .f32) (q : Fin 64) :
    out0_B_5 (F := Ideal) c i a1 h1 a2 h2 a3 h3 a4 h4 a5 h5 a6 h6 hc x0 x1 x2 x3 xo5 (ix2 (0 : Fin 2) q)
      = xo5 (ix2 (0 : Fin 2) q) + ∑ p : Fin 10000, k0_pay2 (F := Ideal) x0 x1 x2 x3 (ix2 p q) := by
  refine (congrFun (out_B_5 (F := Ideal) c i a1 h1 a2 h2 a3 h3 a4 h4 a5 h5 a6 h6 hc x0 x1 x2 x3 xo5) (ix2 (0 : Fin 2) q)).trans ?_
  refine (canon_row0 (Val := Elt Ideal) (e := .f32) (k0_pay4 (F := Ideal) x0 x1 x2 x3 (View.ld xo5 row1))
    (k0_pay3 (F := Ideal) x0 x1 x2 x3 (View.ld xo5 row0)) [] q).trans ?_
  refine (Pay.pay3_apply x0 x1 x2 x3 (View.ld xo5 row0) q).trans ?_
  show xo5 (row0.idx (ix2 (0 : Fin 1) q)) + _ = _
  rw [row0_idx]

/-- Case B adds the column sum of the block's squares to the row 1 it found. -/
theorem out_B_5_row1 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : ¬cond0_0 i) (x0 x1 : Vec Ideal S10000x64 .f32) (x2 : Vec Ideal S64x64 .bf16) (x3 : Vec Ideal S1x64 .f32) (xo5 : Vec Ideal S2x64 .f32) (q : Fin 64) :
    out0_B_5 (F := Ideal) c i a1 h1 a2 h2 a3 h3 a4 h4 a5 h5 a6 h6 hc x0 x1 x2 x3 xo5 (ix2 (1 : Fin 2) q)
      = xo5 (ix2 (1 : Fin 2) q) + ∑ p : Fin 10000,
          k0_pay2 (F := Ideal) x0 x1 x2 x3 (ix2 p q) * k0_pay2 (F := Ideal) x0 x1 x2 x3 (ix2 p q) := by
  refine (congrFun (out_B_5 (F := Ideal) c i a1 h1 a2 h2 a3 h3 a4 h4 a5 h5 a6 h6 hc x0 x1 x2 x3 xo5) (ix2 (1 : Fin 2) q)).trans ?_
  refine (canon_row1 (Val := Elt Ideal) (e := .f32) (k0_pay4 (F := Ideal) x0 x1 x2 x3 (View.ld xo5 row1))
    [(⟨row0, k0_pay3 (F := Ideal) x0 x1 x2 x3 (View.ld xo5 row0)⟩ : View.Piece (Elt Ideal) S2x64 .f32)] q).trans ?_
  refine (Pay.pay4_apply x0 x1 x2 x3 (View.ld xo5 row1) q).trans ?_
  show xo5 (row1.idx (ix2 (0 : Fin 1) q)) + _ = _
  rw [row1_idx]

/-- Case A leaves the block's column sum in row 0. -/
theorem out_A_5_row0 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : cond0_0 i) (x0 x1 : Vec Ideal S10000x64 .f32) (x2 : Vec Ideal S64x64 .bf16) (x3 : Vec Ideal S1x64 .f32) (q : Fin 64) :
    out0_A_5 (F := Ideal) c i a1 h1 a2 h2 a3 h3 a4 h4 a5 h5 a6 h6 hc x0 x1 x2 x3 (ix2 (0 : Fin 2) q)
      = ∑ p : Fin 10000, k0_pay2 (F := Ideal) x0 x1 x2 x3 (ix2 p q) := by
  refine (congrFun (out_A_5 (F := Ideal) c i a1 h1 a2 h2 a3 h3 a4 h4 a5 h5 a6 h6 hc x0 x1 x2 x3) (ix2 (0 : Fin 2) q)).trans ?_
  refine (canon_row0 (Val := Elt Ideal) (e := .f32) (k0_pay4 (F := Ideal) x0 x1 x2 x3 (View.ld (k0_pay1 (F := Ideal)) row1))
    (k0_pay3 (F := Ideal) x0 x1 x2 x3 (View.ld (k0_pay1 (F := Ideal)) row0))
    [(⟨rows, k0_pay1 (F := Ideal)⟩ : View.Piece (Elt Ideal) S2x64 .f32)] q).trans ?_
  refine (Pay.pay3_apply x0 x1 x2 x3 (View.ld (k0_pay1 (F := Ideal)) row0) q).trans ?_
  show k0_pay1 (F := Ideal) (row0.idx (ix2 (0 : Fin 1) q)) + _ = _
  rw [Pay.pay1_apply, zero_add]

/-- Case A leaves the column sum of the block's squares in row 1. -/
theorem out_A_5_row1 (c : Dev nD) (i : grid0.Coords)
    (a1 : Memref sig .tc .vmem S10000x64 .f32) (h1 : a1.IsWhole) (a2 : Memref sig .tc .vmem S10000x64 .f32) (h2 : a2.IsWhole)
    (a3 : Memref sig .tc .vmem S64x64 .bf16) (h3 : a3.IsWhole) (a4 : Memref sig .tc .vmem S1x64 .f32) (h4 : a4.IsWhole)
    (a5 : Memref sig .tc .vmem S10000x64 .f32) (h5 : a5.IsWhole) (a6 : Memref sig .tc .vmem S2x64 .f32) (h6 : a6.IsWhole)
    (hc : cond0_0 i) (x0 x1 : Vec Ideal S10000x64 .f32) (x2 : Vec Ideal S64x64 .bf16) (x3 : Vec Ideal S1x64 .f32) (q : Fin 64) :
    out0_A_5 (F := Ideal) c i a1 h1 a2 h2 a3 h3 a4 h4 a5 h5 a6 h6 hc x0 x1 x2 x3 (ix2 (1 : Fin 2) q)
      = ∑ p : Fin 10000, k0_pay2 (F := Ideal) x0 x1 x2 x3 (ix2 p q) * k0_pay2 (F := Ideal) x0 x1 x2 x3 (ix2 p q) := by
  refine (congrFun (out_A_5 (F := Ideal) c i a1 h1 a2 h2 a3 h3 a4 h4 a5 h5 a6 h6 hc x0 x1 x2 x3) (ix2 (1 : Fin 2) q)).trans ?_
  refine (canon_row1 (Val := Elt Ideal) (e := .f32) (k0_pay4 (F := Ideal) x0 x1 x2 x3 (View.ld (k0_pay1 (F := Ideal)) row1))
    [(⟨row0, k0_pay3 (F := Ideal) x0 x1 x2 x3 (View.ld (k0_pay1 (F := Ideal)) row0)⟩ : View.Piece (Elt Ideal) S2x64 .f32),
      (⟨rows, k0_pay1 (F := Ideal)⟩ : View.Piece (Elt Ideal) S2x64 .f32)] q).trans ?_
  refine (Pay.pay4_apply x0 x1 x2 x3 (View.ld (k0_pay1 (F := Ideal)) row1) q).trans ?_
  show k0_pay1 (F := Ideal) (row1.idx (ix2 (0 : Fin 1) q)) + _ = _
  rw [Pay.pay1_apply, zero_add]

variable (V : (c : Dev nD) → (b : Ref sig .tc) → Buf (Elt Ideal) ((c : Thread nD τ).loc b))

/-- The node features as the region finds them. -/
def Xm (c : Dev nD) : Spec.Rows := fun r k => (V c main_arg0 : S100000x64.Idx → EReal) (ix2 r k)
/-- The aggregate as the region finds it. -/
def Am (c : Dev nD) : Spec.Rows := fun r k => (V c main_v22 : S100000x64.Idx → EReal) (ix2 r k)
/-- The transposed weights as the region finds them. -/
def Wt (c : Dev nD) : Spec.Sq := fun k q => (V c main_v24 : S64x64.Idx → EReal) (ix2 k q)
/-- The bias row as the region finds it. -/
def bias (c : Dev nD) : Spec.Row := fun q => (V c main_v25 : S1x64.Idx → EReal) (ix2 0 q)
/-- The linear layer of the region's inputs. -/
def Hlin (c : Dev nD) : Spec.Rows := Spec.lin (Xm V c) (Am V c) (Wt V c) (bias V c)

/-! ## The blocks a point is given, read at an index -/

/-- The block of x at point t. -/
abbrev xblk (c : Dev nD) (t : Fin cfg0.N) : Vec Ideal S10000x64 .f32 := iblk0 V c 0 t
/-- The block of the aggregate at point t. -/
abbrev ablk (c : Dev nD) (t : Fin cfg0.N) : Vec Ideal S10000x64 .f32 := iblk0 V c 1 t
/-- The transposed weights at point t: their one block. -/
abbrev wblk (c : Dev nD) (t : Fin cfg0.N) : Vec Ideal S64x64 .bf16 := iblk0 V c 2 t
/-- The bias row at point t: its one block. -/
abbrev bblk (c : Dev nD) (t : Fin cfg0.N) : Vec Ideal S1x64 .f32 := iblk0 V c 3 t

/-- Which block of its array each window is on at point t: the row windows on block t, the others on their one block. -/
theorem index_rows : ∀ t : Fin cfg0.N, (win0_0.index t 0 = t.val ∧ win0_0.index t 1 = 0)
    ∧ (win0_1.index t 0 = t.val ∧ win0_1.index t 1 = 0) ∧ (win0_4.index t 0 = t.val ∧ win0_4.index t 1 = 0) :=
  (by decide +kernel : ∀ t : Fin grid0.N, (win0_0.index t 0 = t.val ∧ win0_0.index t 1 = 0)
    ∧ (win0_1.index t 0 = t.val ∧ win0_1.index t 1 = 0) ∧ (win0_4.index t 0 = t.val ∧ win0_4.index t 1 = 0))
theorem index_whole : ∀ t : Fin cfg0.N, (win0_2.index t 0 = 0 ∧ win0_2.index t 1 = 0)
    ∧ (win0_3.index t 0 = 0 ∧ win0_3.index t 1 = 0) ∧ (win0_5.index t 0 = 0 ∧ win0_5.index t 1 = 0) :=
  (by decide +kernel : ∀ t : Fin grid0.N, (win0_2.index t 0 = 0 ∧ win0_2.index t 1 = 0)
    ∧ (win0_3.index t 0 = 0 ∧ win0_3.index t 1 = 0) ∧ (win0_5.index t 0 = 0 ∧ win0_5.index t 1 = 0))

/-- Row p of x's block t is row 10000 t + p of x. -/
theorem xblk_apply (c : Dev nD) (t : Fin cfg0.N) (p : Fin 10000) (k : Fin 64) :
    xblk V c t (ix2 p k) = Xm V c ⟨10000 * t.val + p.val, (by have := t.isLt; have hN : cfg0.N = 10 := N_0; have := p.isLt; omega)⟩ k := by
  unfold Xm
  show ((cfg0.win 0).blk t).view.read (Elt Ideal) (V c (Pipeline.arrRef spec0 0)) (ix2 p k) = _
  rw [View.read_apply]
  show (V c main_arg0 : S100000x64.Idx → EReal) _ = (V c main_arg0 : S100000x64.Idx → EReal) _
  congr 1
  funext a; apply Fin.ext
  match a with
  | ⟨0, _⟩ => show win0_0.index t 0 * 10000 + 1 * p.val = 10000 * t.val + p.val; rw [(index_rows t).1.1]; omega
  | ⟨1, _⟩ => show win0_0.index t 1 * 64 + 1 * k.val = k.val; rw [(index_rows t).1.2]; omega

/-- Row p of the aggregate's block t is row 10000 t + p of the aggregate. -/
theorem ablk_apply (c : Dev nD) (t : Fin cfg0.N) (p : Fin 10000) (k : Fin 64) :
    ablk V c t (ix2 p k) = Am V c ⟨10000 * t.val + p.val, (by have := t.isLt; have hN : cfg0.N = 10 := N_0; have := p.isLt; omega)⟩ k := by
  unfold Am
  show ((cfg0.win 1).blk t).view.read (Elt Ideal) (V c (Pipeline.arrRef spec0 1)) (ix2 p k) = _
  rw [View.read_apply]
  show (V c main_v22 : S100000x64.Idx → EReal) _ = (V c main_v22 : S100000x64.Idx → EReal) _
  congr 1
  funext a; apply Fin.ext
  match a with
  | ⟨0, _⟩ => show win0_1.index t 0 * 10000 + 1 * p.val = 10000 * t.val + p.val; rw [(index_rows t).2.1.1]; omega
  | ⟨1, _⟩ => show win0_1.index t 1 * 64 + 1 * k.val = k.val; rw [(index_rows t).2.1.2]; omega

/-- The weights' block is the weights. -/
theorem wblk_apply (c : Dev nD) (t : Fin cfg0.N) (k q : Fin 64) : wblk V c t (ix2 k q) = Wt V c k q := by
  unfold Wt
  show ((cfg0.win 2).blk t).view.read (Elt Ideal) (V c (Pipeline.arrRef spec0 2)) (ix2 k q) = _
  rw [View.read_apply]
  show (V c main_v24 : S64x64.Idx → EReal) _ = (V c main_v24 : S64x64.Idx → EReal) _
  congr 1
  funext a; apply Fin.ext
  match a with
  | ⟨0, _⟩ => show win0_2.index t 0 * 64 + 1 * k.val = k.val; rw [(index_whole t).1.1]; omega
  | ⟨1, _⟩ => show win0_2.index t 1 * 64 + 1 * q.val = q.val; rw [(index_whole t).1.2]; omega

/-- The bias row's block is the bias row. -/
theorem bblk_apply (c : Dev nD) (t : Fin cfg0.N) (q : Fin 64) : bblk V c t (ix2 (0 : Fin 1) q) = bias V c q := by
  unfold bias
  show ((cfg0.win 3).blk t).view.read (Elt Ideal) (V c (Pipeline.arrRef spec0 3)) (ix2 (0 : Fin 1) q) = _
  rw [View.read_apply]
  show (V c main_v25 : S1x64.Idx → EReal) _ = (V c main_v25 : S1x64.Idx → EReal) _
  congr 1
  funext a; apply Fin.ext
  match a with
  | ⟨0, _⟩ => show win0_3.index t 0 * 1 + 1 * 0 = 0; rw [(index_whole t).2.1.1]
  | ⟨1, _⟩ => show win0_3.index t 1 * 64 + 1 * q.val = q.val; rw [(index_whole t).2.1.2]; omega

/-- The block of the linear layer that point t computes. -/
def hblk (c : Dev nD) (t : Fin cfg0.N) : Vec Ideal S10000x64 .f32 :=
  k0_pay2 (F := Ideal) (xblk V c t) (ablk V c t) (wblk V c t) (bblk V c t)

/-- It is rows 10000 t … 10000 t + 9999 of the linear layer. -/
theorem hblk_apply (c : Dev nD) (t : Fin cfg0.N) (p : Fin 10000) (q : Fin 64) :
    hblk V c t (ix2 p q) = Hlin V c ⟨10000 * t.val + p.val, (by have := t.isLt; have hN : cfg0.N = 10 := N_0; have := p.isLt; omega)⟩ q := by
  unfold hblk
  refine (Pay.pay2_apply (xblk V c t) (ablk V c t) (wblk V c t) (bblk V c t) p q).trans ?_
  show _ = (∑ k : Fin 64, (Xm V c _ k + Am V c _ k) * Wt V c k q) + bias V c q
  rw [bblk_apply]
  refine congrArg (· + bias V c q) (Finset.sum_congr rfl fun k _ => ?_)
  rw [xblk_apply, ablk_apply, wblk_apply]

/-! ## What the two output blocks hold after each point -/

/-- The first output's block after point t is the linear layer's block t. -/
theorem outs_fst (c : Dev nD) (t : Fin cfg0.N) : (outsAt0 V c t.val t.isLt).1 = hblk V c t := by
  unfold hblk
  by_cases h0 : t.val % 10 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t)
      (outsAt0 V c (t.val - 1) (Nat.lt_of_le_of_lt (Nat.sub_le _ _) t.isLt)).2

/-- Column q's sum over the linear layer's block t. -/
def bsum (c : Dev nD) (t : Fin cfg0.N) (q : Fin 64) : EReal := ∑ p : Fin 10000, hblk V c t (ix2 p q)
/-- Column q's sum of squares over the linear layer's block t. -/
def bsq (c : Dev nD) (t : Fin cfg0.N) (q : Fin 64) : EReal := ∑ p : Fin 10000, hblk V c t (ix2 p q) * hblk V c t (ix2 p q)

/-- The accumulator after point n: row 0 the column sums of blocks 0 … n, row 1 those of their squares. By induction
    on the point: point 0 resets it and adds block 0's, every later point adds its own to what the point before left. -/
theorem outs_snd (c : Dev nD) : ∀ (n : ℕ) (h : n < cfg0.N) (q : Fin 64),
    ((outsAt0 V c n h).2 : S2x64.Idx → EReal) (ix2 (0 : Fin 2) q)
        = ∑ s : Fin (n + 1), bsum V c ⟨s.val, Nat.lt_of_lt_of_le s.isLt (Nat.succ_le_of_lt h)⟩ q
      ∧ ((outsAt0 V c n h).2 : S2x64.Idx → EReal) (ix2 (1 : Fin 2) q)
        = ∑ s : Fin (n + 1), bsq V c ⟨s.val, Nat.lt_of_lt_of_le s.isLt (Nat.succ_le_of_lt h)⟩ q
  | 0, h, q => by
    rw [outsAt0_A V c ⟨0, h⟩ rfl]
    dsimp only
    refine ⟨?_, ?_⟩
    · refine (out_A_5_row0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) q).trans ?_
      rw [Fin.sum_univ_one]
      rfl
    · refine (out_A_5_row1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) q).trans ?_
      rw [Fin.sum_univ_one]
      rfl
  | n + 1, h, q => by
    have hN : cfg0.N = 10 := N_0
    have hB : ¬(⟨n + 1, h⟩ : Fin cfg0.N).val % 10 = 0 := by dsimp only; omega
    obtain ⟨ih0, ih1⟩ := outs_snd c n (Nat.lt_of_succ_lt h) q
    rw [outsAt0_B V c ⟨n + 1, h⟩ hB]
    dsimp only
    refine ⟨?_, ?_⟩
    · refine (out_B_5_row0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩)
        (outsAt0 V c n (Nat.lt_of_succ_lt h)).2 q).trans ?_
      rw [ih0]
      exact (Fin.sum_univ_castSucc
        (fun s : Fin (n + 1 + 1) => bsum V c ⟨s.val, Nat.lt_of_lt_of_le s.isLt (Nat.succ_le_of_lt h)⟩ q)).symm
    · refine (out_B_5_row1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩)
        (outsAt0 V c n (Nat.lt_of_succ_lt h)).2 q).trans ?_
      rw [ih1]
      exact (Fin.sum_univ_castSucc
        (fun s : Fin (n + 1 + 1) => bsq V c ⟨s.val, Nat.lt_of_lt_of_le s.isLt (Nat.succ_le_of_lt h)⟩ q)).symm
/-! ## The two result arrays after the region -/

/-- A sum over the 100000 rows is the sum over the ten blocks of the sums over their 10000 rows. -/
theorem sum_rows (f : Fin 100000 → EReal) :
    ∑ r : Fin 100000, f r
      = ∑ s : Fin 10, ∑ p : Fin 10000, f ⟨10000 * s.val + p.val, by have := s.isLt; have := p.isLt; omega⟩ := by
  rw [← Fintype.sum_prod_type']
  refine (Equiv.sum_comp (finProdFinEquiv : Fin 10 × Fin 10000 ≃ Fin 100000) f).symm.trans ?_
  refine Finset.sum_congr rfl fun x _ => congrArg f (Fin.ext ?_)
  show x.2.val + 10000 * x.1.val = 10000 * x.1.val + x.2.val
  omega

/-- The linear layer as contents of the first result array. -/
def G4 (c : Dev nD) : S100000x64.Idx → EReal := fun i => Hlin V c (i 0) (i 1)

/-- What point t writes back to the first result array is block t of the linear layer. -/
theorem flushed4 (c : Dev nD) (t : Fin cfg0.N) (hf : (cfg0.win 4).flush t = true) :
    (dat0 V c).flushed 4 t = ((cfg0.win 4).blk t).view.read (Elt Ideal) (G4 V c) := by
  show (cfg0.win 4).cut (grid0.coords t) ((dat0 V c).after 4 t) = _
  rw [after0_4, outs_fst]
  funext y
  rw [View.read_apply]
  have hy0 : (y 0).val < 10000 := (y 0).isLt
  have hy1 : (y 1).val < 64 := (y 1).isLt
  have e1 : (cfg0.win 4).xinj (grid0.coords t) y = ix2 (⟨(y 0).val, hy0⟩ : Fin 10000) (⟨(y 1).val, hy1⟩ : Fin 64) := by
    funext a
    match a with
    | ⟨0, _⟩ => rfl
    | ⟨1, _⟩ => rfl
  show hblk V c t ((cfg0.win 4).xinj (grid0.coords t) y) = G4 V c (((cfg0.win 4).blk t).view.emb y)
  rw [e1, hblk_apply]
  unfold G4
  congr 1 <;> apply Fin.ext
  · show 10000 * t.val + (y 0).val = win0_4.index t 0 * 10000 + 1 * (y 0).val
    rw [(index_rows t).2.2.1]; omega
  · show (y 1).val = win0_4.index t 1 * 64 + 1 * (y 1).val
    rw [(index_rows t).2.2.2]; omega

/-- The first result array after the region is the linear layer. -/
theorem hlin_final (c : Dev nD) (i : S100000x64.Idx) :
    ((dat0 V c).arrAt 4 cfg0.N : S100000x64.Idx → EReal) i = Hlin V c (i 0) (i 1) := by
  have hN : grid0.N = 10 := N_0
  refine congrFun ((dat0 V c).arrAt_eq_of_cover 4 (G4 V c) (flushed4 V c) fun j => ?_) i
  have hj0 : (j 0).val < 100000 := (j 0).isLt
  have hj1 : (j 1).val < 64 := (j 1).isLt
  have ht : (j 0).val / 10000 < grid0.N := by omega
  refine ⟨⟨(j 0).val / 10000, ht⟩, flush0_4 _, ?_⟩
  show j ∈ ((View.whole main_v26_0).slice (win0_4.rect ⟨(j 0).val / 10000, ht⟩)).set
  rw [View.set_slice_whole, Rect.mem_set_unit]
  intro a
  match a with
  | ⟨0, _⟩ =>
    show win0_4.index ⟨(j 0).val / 10000, ht⟩ 0 * 10000 ≤ (j 0 : Nat)
      ∧ (j 0 : Nat) < win0_4.index ⟨(j 0).val / 10000, ht⟩ 0 * 10000 + 10000
    rw [(index_rows ⟨(j 0).val / 10000, ht⟩).2.2.1]
    dsimp only
    omega
  | ⟨1, _⟩ =>
    show win0_4.index ⟨(j 0).val / 10000, ht⟩ 1 * 64 ≤ (j 1 : Nat)
      ∧ (j 1 : Nat) < win0_4.index ⟨(j 0).val / 10000, ht⟩ 1 * 64 + 64
    rw [(index_rows ⟨(j 0).val / 10000, ht⟩).2.2.2]
    omega

/-- The last point is a point. -/
theorem lt9 : 9 < cfg0.N := by rw [show cfg0.N = 10 from N_0]; decide

/-- The accumulator after the last point. -/
abbrev acc9 (c : Dev nD) : Vec Ideal S2x64 .f32 := (outsAt0 V c 9 lt9).2

/-- The one write-back of the accumulator, at the last point, writes it whole. -/
theorem flushed5 (c : Dev nD) (t : Fin cfg0.N) (hf : (cfg0.win 5).flush t = true) :
    (dat0 V c).flushed 5 t = ((cfg0.win 5).blk t).view.read (Elt Ideal) (acc9 V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5]
  have hz' : (fun a => win0_5.index t0_9 a * main_v26_1.ty.shape.size a) = fun _ => 0 :=
    funext fun a => by fin_cases a <;> decide
  exact (Memref.read_access_unit_zero (Elt Ideal) main_v26_1 hz' (fun a => by rw [congrFun hz' a]; simp) (acc9 V c)).symm

/-- So the second result array after the region is the accumulator after the last point. -/
theorem acc_final (c : Dev nD) : (dat0 V c).arrAt 5 cfg0.N = acc9 V c :=
  (dat0 V c).arrAt_eq_of_cover 5 (acc9 V c) (flushed5 V c) fun i =>
    ⟨t0_9, (flush0_5 t0_9).mpr rfl, by
      show i ∈ ((View.whole main_v26_1).slice (win0_5.rect t0_9)).set
      rw [View.set_slice_whole, Rect.mem_set_unit]
      intro a
      have h0 : (i 0 : Nat) < 2 := (i 0).isLt
      have h1 : (i 1 : Nat) < 64 := (i 1).isLt
      match a with
      | ⟨0, _⟩ =>
        show win0_5.index t0_9 0 * 2 ≤ (i 0 : Nat) ∧ (i 0 : Nat) < win0_5.index t0_9 0 * 2 + 2
        rw [(index_whole t0_9).2.2.1]; omega
      | ⟨1, _⟩ =>
        show win0_5.index t0_9 1 * 64 ≤ (i 1 : Nat) ∧ (i 1 : Nat) < win0_5.index t0_9 1 * 64 + 64
        rw [(index_whole t0_9).2.2.2]; omega⟩

/-- The ten blocks' column sums add up to the column sum over all rows. -/
theorem sum_bsum (c : Dev nD) (q : Fin 64) :
    ∑ s : Fin (9 + 1), bsum V c ⟨s.val, Nat.lt_of_lt_of_le s.isLt (Nat.succ_le_of_lt lt9)⟩ q = ∑ r : Fin 100000, Hlin V c r q := by
  rw [sum_rows]
  refine Finset.sum_congr rfl fun s _ => ?_
  unfold bsum
  refine Finset.sum_congr rfl fun p _ => ?_
  rw [hblk_apply]

/-- The same of the squares. -/
theorem sum_bsq (c : Dev nD) (q : Fin 64) :
    ∑ s : Fin (9 + 1), bsq V c ⟨s.val, Nat.lt_of_lt_of_le s.isLt (Nat.succ_le_of_lt lt9)⟩ q
      = ∑ r : Fin 100000, Hlin V c r q * Hlin V c r q := by
  rw [sum_rows]
  refine Finset.sum_congr rfl fun s _ => ?_
  unfold bsq
  refine Finset.sum_congr rfl fun p _ => ?_
  rw [hblk_apply]

/-- The accumulator's first row after the region: each column's sum over all rows. -/
theorem stats_final_sum (c : Dev nD) (q : Fin 64) :
    ((dat0 V c).arrAt 5 cfg0.N : S2x64.Idx → EReal) (ix2 0 q) = ∑ r : Fin 100000, Hlin V c r q := by
  rw [acc_final]
  exact ((outs_snd V c 9 lt9 q).1).trans (sum_bsum V c q)

/-- The accumulator's second row after the region: each column's sum of squares over all rows. -/
theorem stats_final_sumsq (c : Dev nD) (q : Fin 64) :
    ((dat0 V c).arrAt 5 cfg0.N : S2x64.Idx → EReal) (ix2 1 q) = ∑ r : Fin 100000, Hlin V c r q * Hlin V c r q := by
  rw [acc_final]
  exact ((outs_snd V c 9 lt9 q).2).trans (sum_bsq V c q)

end Cert.KernelIdeal.R0

end
-- ==== Proof.Region1.lean ====
/-
  What the second kernel region leaves in the result array.

  The grid's ten points each take a block of 10000 rows of the linear layer's array, the scale row, the shift row and the
  64 × 64 gate matrix, and write the gated block; the ten blocks tile the array, so the array at (r, c) is the gate of the
  scaled and shifted row r at column c.
-/
import proofs.«160966_j59407987638626_1_alg».proof.Proof.Gen.KernelIdeal.Frame
import proofs.«160966_j59407987638626_1_alg».proof.Proof.Payloads
import proofs.«160966_j59407987638626_1_alg».proof.Proof.Spec
import Idealize.ShloMosaic.Lib.Pipeline.Value
import Idealize.ShloMosaic.Lib.ValueIdx

set_option maxRecDepth 16384

noncomputable section

namespace Cert.KernelIdeal.R1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The linear layer's array as the region finds it. -/
def Hm (c : Dev nD) : Spec.Rows := fun r k => (V c main_v26_0 : S100000x64.Idx → EReal) (ix2 r k)
/-- The scale row as the region finds it. -/
def scale (c : Dev nD) : Spec.Row := fun k => (V c main_v41 : S1x64.Idx → EReal) (ix2 0 k)
/-- The shift row as the region finds it. -/
def shift (c : Dev nD) : Spec.Row := fun k => (V c main_v45 : S1x64.Idx → EReal) (ix2 0 k)
/-- The gate matrix as the region finds it. -/
def Cm (c : Dev nD) : Spec.Sq := fun k q => (V c main_v46 : S64x64.Idx → EReal) (ix2 k q)

/-- A block offset of zero on both axes. -/
theorem hz : (![0, 0] : Fin 2 → Nat) = fun _ => 0 := funext fun a => by
  match a with
  | ⟨0, _⟩ => rfl
  | ⟨1, _⟩ => rfl

/-- The windows' index maps over the grid: the two row-block windows sit at block (t, 0), the others at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The linear layer's block at point t is rows 10000 t … 10000 t + 9999 of its array. -/
theorem blk0_apply (c : Dev nD) (t : Fin cfg1.N) (p : Fin 10000) (k : Fin 64) (r : Fin 100000)
    (hr : r.val = 10000 * t.val + p.val) :
    (iblk1 V c 0 t : Vec Ideal S10000x64 .f32) (ix2 p k) = Hm V c r k := by
  obtain ⟨e0, e1, -⟩ := idx_facts t
  unfold iblk1 Hm
  rw [View.read_apply]
  show V c main_v26_0 _ = V c main_v26_0 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The scale row's block is the row itself at every point. -/
theorem blk1_apply (c : Dev nD) (t : Fin cfg1.N) (k : Fin 64) :
    (iblk1 V c 1 t : Vec Ideal S1x64 .f32) (ix2 0 k) = scale V c k := by
  obtain ⟨-, -, e0, e1, -⟩ := idx_facts t
  unfold iblk1 scale
  rw [View.read_apply]
  show V c main_v41 _ = V c main_v41 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * k.val = k.val; rw [e1]; omega

/-- The shift row's block is the row itself at every point. -/
theorem blk2_apply (c : Dev nD) (t : Fin cfg1.N) (k : Fin 64) :
    (iblk1 V c 2 t : Vec Ideal S1x64 .f32) (ix2 0 k) = shift V c k := by
  obtain ⟨-, -, -, -, e0, e1, -⟩ := idx_facts t
  unfold iblk1 shift
  rw [View.read_apply]
  show V c main_v45 _ = V c main_v45 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

/-- The gate matrix's block is the matrix itself at every point. -/
theorem blk3_apply (c : Dev nD) (t : Fin cfg1.N) (k q : Fin 64) :
    (iblk1 V c 3 t : Vec Ideal S64x64 .bf16) (ix2 k q) = Cm V c k q := by
  obtain ⟨-, -, -, -, -, -, e0, e1, -⟩ := idx_facts t
  unfold iblk1 Cm
  rw [View.read_apply]
  show V c main_v46 _ = V c main_v46 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The body's stored block at (p, q), over any four blocks that read as row r of H, the two rows and the matrix. -/
theorem pay_point (x0 : Vec Ideal S10000x64 .f32) (x1 x2 : Vec Ideal S1x64 .f32) (x3 : Vec Ideal S64x64 .bf16)
    (H : Spec.Rows) (sc sh : Spec.Row) (C : Spec.Sq) (p : Fin 10000) (q : Fin 64) (r : Fin 100000)
    (h0 : ∀ k, x0 (ix2 p k) = H r k) (h1 : ∀ k, x1 (ix2 0 k) = sc k) (h2 : ∀ k, x2 (ix2 0 k) = sh k)
    (h3 : ∀ k q, x3 (ix2 k q) = C k q) :
    k1_pay1 (F := Ideal) x0 x1 x2 x3 (ix2 p q) = Spec.gate (fun r k => H r k * sc k + sh k) C r q := by
  rw [Pay.k1_pay1_apply]
  unfold Spec.gate
  simp only [h0, h1, h2, h3]

/-- The whole result array as one function of its index. -/
def G (c : Dev nD) : S100000x64.Idx → EReal := fun i =>
  Spec.gate (fun r k => Hm V c r k * scale V c k + shift V c k) (Cm V c) (i 0) (i 1)

/-- Where point t's output block sits in the array: row 10000 t + p, column q. -/
theorem out_emb (t : Fin cfg1.N) (p : Fin 10000) (q : Fin 64) :
    ((((cfg1.win 4).blk t).view.emb (ix2 p q) : S100000x64.Idx) 0).val = 10000 * t.val + p.val
    ∧ ((((cfg1.win 4).blk t).view.emb (ix2 p q) : S100000x64.Idx) 1).val = q.val := by
  obtain ⟨-, -, -, -, -, -, -, -, e0, e1⟩ := idx_facts t
  constructor
  · show win1_4.index t (0 : Fin 2) * 10000 + 1 * p.val = _; rw [e0]; omega
  · show win1_4.index t (1 : Fin 2) * 64 + 1 * q.val = _; rw [e1]; omega

/-- What point t writes back is block t of G. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S10000x64) hz, View.ld_unit_zero (S := S1x64) hz, View.ld_unit_zero (S := S64x64) hz]
  refine funext fun (j : S10000x64.Idx) => ?_
  obtain ⟨p, q, rfl⟩ : ∃ (p : Fin 10000) (q : Fin 64), j = ix2 p q := ⟨j 0, j 1, eq_ix2 j⟩
  obtain ⟨hr, hq⟩ := out_emb t p q
  show k1_pay1 (F := Ideal) (iblk1 V c 0 t) (iblk1 V c 1 t) (iblk1 V c 2 t) (iblk1 V c 3 t) (ix2 p q)
    = G V c (((cfg1.win 4).blk t).view.emb (ix2 p q))
  refine (pay_point (iblk1 V c 0 t) (iblk1 V c 1 t) (iblk1 V c 2 t) (iblk1 V c 3 t)
    (Hm V c) (scale V c) (shift V c) (Cm V c) p q
    ((((cfg1.win 4).blk t).view.emb (ix2 p q) : S100000x64.Idx) 0)
    (fun k => blk0_apply V c t p k _ hr) (fun k => blk1_apply V c t k) (fun k => blk2_apply V c t k)
    (fun k q => blk3_apply V c t k q)).trans ?_
  exact congrArg (Spec.gate (fun r k => Hm V c r k * scale V c k + shift V c k) (Cm V c)
    ((((cfg1.win 4).blk t).view.emb (ix2 p q) : S100000x64.Idx) 0)) (Fin.ext hq).symm

/-- Every index of the array is in the block of the point its row's quotient by 10000 names. -/
theorem cover (i : S100000x64.Idx) :
    ∃ t : Fin cfg1.N, (cfg1.win 4).flush t = true ∧ i ∈ ((cfg1.win 4).blk t).view.set := by
  have hN : cfg1.N = 10 := N_1
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [hN]; omega⟩, rfl⟩
  obtain ⟨-, -, -, -, -, -, -, -, e0, e1⟩ := idx_facts t
  refine ⟨t, flush1_4 t, ?_⟩
  show i ∈ ((View.whole main_v47).slice (win1_4.rect t)).set
  rw [View.set_slice_whole, Rect.mem_set_unit]
  intro a
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 64 ≤ (i 1).val ∧ (i 1).val < win1_4.index t (1 : Fin 2) * 64 + 64
    rw [e1]; omega

/-- The array after the region is G. -/
theorem final (c : Dev nD) : (dat1 V c).arrAt 4 cfg1.N = G V c :=
  (dat1 V c).arrAt_eq_of_cover 4 (G V c) (fun t _ => flushed_eq V c t) cover

/-- The result array after the region: the gate of the scaled and shifted rows. -/
theorem out_final (c : Dev nD) (i : S100000x64.Idx) :
    ((dat1 V c).arrAt 4 cfg1.N : S100000x64.Idx → EReal) i
      = Spec.gate (fun r k => Hm V c r k * scale V c k + shift V c k) (Cm V c) (i 0) (i 1) :=
  congrFun (final V c) i

end Cert.KernelIdeal.R1

end
-- ==== Proof.Host.lean ====
/-
  What the host operations around the two kernel regions compute, read where the regions take their inputs.

  Before the first region: the aggregate (the in-neighbours' mean, carried as one function `aggK` of the features and
  the edge list and never opened here), the transposed weights, and the bias laid out as a row. Between the regions: the
  column means and variances from the accumulator's two rows, and from them the scale row γ · s and the shift row
  β − μ γ s, with s the reciprocal root of the variance plus ε; the gate matrix passes through unchanged.
-/
import proofs.«160966_j59407987638626_1_alg».proof.Proof.Gen.KernelIdeal.Frame
import proofs.«160966_j59407987638626_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-! ## The aggregate, as this program's host operations spell it -/

/-- The edges' source words. -/
def srcK (x1 : (⟨S2x1200000, .i32⟩ : BufTy).Contents (Elt Ideal)) : (⟨S1200000, .i32⟩ : BufTy).Contents (Elt Ideal) :=
  shapeCast _ (extractStridedSlice S1x1200000 ![0, 0] x1 slices_S2x1200000_S1x1200000_0_0) shapeCasts_S1x1200000_S1200000
/-- The edges' destination words. -/
def dstK (x1 : (⟨S2x1200000, .i32⟩ : BufTy).Contents (Elt Ideal)) : (⟨S1200000, .i32⟩ : BufTy).Contents (Elt Ideal) :=
  shapeCast _ (extractStridedSlice S1x1200000 ![1, 0] x1 slices_S2x1200000_S1x1200000_1_0) shapeCasts_S1x1200000_S1200000
/-- The source words with a negative one moved up by the number of rows. -/
def wrapK (x1 : (⟨S2x1200000, .i32⟩ : BufTy).Contents (Elt Ideal)) : (⟨S1200000, .i32⟩ : BufTy).Contents (Elt Ideal) :=
  select (cmpi .slt (srcK x1) (broadcastInDim S1200000 ![] bcast_S_S1200000 (constantI S_ 32 0#32)))
    (addi (srcK x1) (broadcastInDim S1200000 ![] bcast_S_S1200000 (constantI S_ 32 100000#32))) (srcK x1)
/-- The source rows of the features, one per edge. -/
def gathK (x0 : (⟨S100000x64, .f32⟩ : BufTy).Contents (Elt Ideal)) (x1 : (⟨S2x1200000, .i32⟩ : BufTy).Contents (Elt Ideal)) :
    (⟨S1200000x64, .f32⟩ : BufTy).Contents (Elt Ideal) :=
  Host.gather gather_S100000x64_S1200000x1_S1200000x64_1_0_n_n_0_1_164 x0
    (broadcastInDim S1200000x1 ![0] bcast_S1200000_S1200000x1_0 (wrapK x1))
/-- The per-destination sums of the source rows. -/
def msgK (x0 : (⟨S100000x64, .f32⟩ : BufTy).Contents (Elt Ideal)) (x1 : (⟨S2x1200000, .i32⟩ : BufTy).Contents (Elt Ideal)) :
    (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 (dstK x1)) (gathK x0 x1)
/-- The per-destination edge counts. -/
def degK (x1 : (⟨S2x1200000, .i32⟩ : BufTy).Contents (Elt Ideal)) : (⟨S100000, .f32⟩ : BufTy).Contents (Elt Ideal) :=
  Host.scatterAdd scatter_S100000_S1200000x1_S1200000_n_0_0_1
    (broadcastInDim S100000 ![] bcast_S_S100000 (constant (F := Ideal) S_ .f32 0x00000000#32))
    (broadcastInDim S1200000x1 ![0] bcast_S1200000_S1200000x1_0 (dstK x1))
    (broadcastInDim S1200000 ![] bcast_S_S1200000 (constant (F := Ideal) S_ .f32 0x3F800000#32))
/-- The aggregate: the sums over the counts, a count below one read as one. -/
def aggK (x0 : (⟨S100000x64, .f32⟩ : BufTy).Contents (Elt Ideal)) (x1 : (⟨S2x1200000, .i32⟩ : BufTy).Contents (Elt Ideal)) :
    (⟨S100000x64, .f32⟩ : BufTy).Contents (Elt Ideal) :=
  Host.divf (msgK x0 x1)
    (broadcastInDim S100000x64 ![0, 1] bcast_S100000x1_S100000x64_0_1
      (broadcastInDim S100000x1 ![0] bcast_S100000_S100000x1_0
        (maximumf (degK x1) (broadcastInDim S100000 ![] bcast_S_S100000 (constant (F := Ideal) S_ .f32 0x3F800000#32)))))

variable (m : (ℓ : Loc nD τ sig) → Buf (Elt Ideal) ℓ) (ρ : Dev nD → PrngReg)

/-! ## Before the first region -/

/-- The features reach the first region as launched. -/
theorem V1_arg0 (c : Dev nD) :
    (V1 m ρ c main_arg0 : S100000x64.Idx → EReal) = m ((c : Thread nD τ).loc main_arg0) := by
  -- no operation of the first stretch writes the features' buffer
  have e : W1 m ρ c (Proc.devRef .tc main_arg0) = W0 m ρ c (Proc.devRef .tc main_arg0) :=
    StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact e

/-- The first region's second operand is the aggregate of the launched features and edges. -/
theorem V1_v22 (c : Dev nD) :
    (V1 m ρ c main_v22 : S100000x64.Idx → EReal)
      = aggK (m ((c : Thread nD τ).loc main_arg0)) (m ((c : Thread nD τ).loc main_arg1)) := by
  -- the stretch's operations, composed, are the chain `aggK` names
  show StableHlo.after hostOps0 (W0 m ρ c) (Proc.devRef .tc main_v22) = _
  after_results_simp <;> rfl

/-- The first region's third operand is the weights transposed. -/
theorem V1_v24 (c : Dev nD) (k q : Fin 64) :
    (V1 m ρ c main_v24 : S64x64.Idx → EReal) (ix2 k q)
      = (m ((c : Thread nD τ).loc main_arg2) : S64x64.Idx → EReal) (ix2 q k) := by
  have e : (V1 m ρ c main_v24 : S64x64.Idx → EReal)
      = (truncf (F := Ideal) (φ := .f32) .bf16
          (transpose S64x64 [1, 0] (m ((c : Thread nD τ).loc main_arg2) : S64x64.Idx → EReal) transposes_S64x64_S64x64_1_0)
          bitsLt_bf16_f32 : S64x64.Idx → EReal) := by
    show StableHlo.after hostOps0 (W0 m ρ c) (Proc.devRef .tc main_v24) = _
    after_results_simp <;> rfl
  rw [e]
  -- the change of format is the identity; the transpose swaps the coordinates
  exact transpose_ix2_apply _ transposes_S64x64_S64x64_1_0 k q

/-- The first region's fourth operand is the bias as a row. -/
theorem V1_v25 (c : Dev nD) (q : Fin 64) :
    (V1 m ρ c main_v25 : S1x64.Idx → EReal) (ix2 0 q)
      = (m ((c : Thread nD τ).loc main_arg3) : S64.Idx → EReal) (ix1 q) := by
  have e : (V1 m ρ c main_v25 : S1x64.Idx → EReal)
      = shapeCast S1x64 (m ((c : Thread nD τ).loc main_arg3)) shapeCasts_S64_S1x64 := by
    show StableHlo.after hostOps0 (W0 m ρ c) (Proc.devRef .tc main_v25) = _
    after_results_simp <;> rfl
  rw [e]
  exact shapeCast_a_1a_apply _ shapeCasts_S64_S1x64 0 q

/-! ## Between the regions -/

/-- γ as launched. -/
abbrev gam (c : Dev nD) : S64.Idx → EReal := m ((c : Thread nD τ).loc main_arg4)
/-- β as launched. -/
abbrev bet (c : Dev nD) : S64.Idx → EReal := m ((c : Thread nD τ).loc main_arg5)
/-- The accumulator as the first region leaves it. -/
abbrev stats (c : Dev nD) : S2x64.Idx → EReal := ((dat0 (V1 m ρ) c).arrAt 5 cfg0.N : S2x64.Idx → EReal)

/-! ### The column statistics, as the second stretch spells them -/

/-- The column means: the accumulator's first row over the number of rows. -/
private def meanK (st : (⟨S2x64, .f32⟩ : BufTy).Contents (Elt Ideal)) : (⟨S64, .f32⟩ : BufTy).Contents (Elt Ideal) :=
  Host.divf (shapeCast _ (extractStridedSlice S1x64 ![0, 0] st slices_S2x64_S1x64_0_0) shapeCasts_S1x64_S64)
    (broadcastInDim S64 ![] bcast_S_S64 (constant (F := Ideal) S_ .f32 0x47C35000#32))
/-- The column means of the squares: the accumulator's second row over the number of rows. -/
private def sqK (st : (⟨S2x64, .f32⟩ : BufTy).Contents (Elt Ideal)) : (⟨S64, .f32⟩ : BufTy).Contents (Elt Ideal) :=
  Host.divf (shapeCast _ (extractStridedSlice S1x64 ![1, 0] st slices_S2x64_S1x64_1_0) shapeCasts_S1x64_S64)
    (broadcastInDim S64 ![] bcast_S_S64 (constant (F := Ideal) S_ .f32 0x47C35000#32))
/-- The reciprocal root of (mean of squares − square of mean + ε). -/
private def rsK (st : (⟨S2x64, .f32⟩ : BufTy).Contents (Elt Ideal)) : (⟨S64, .f32⟩ : BufTy).Contents (Elt Ideal) :=
  Host.rsqrt (addf (subf (sqK st) (mulf (meanK st) (meanK st)))
    (broadcastInDim S64 ![] bcast_S_S64 (constant (F := Ideal) S_ .f32 0x3727C5AC#32)))
/-- The scale row. -/
private def scaleK (st : (⟨S2x64, .f32⟩ : BufTy).Contents (Elt Ideal)) (g : (⟨S64, .f32⟩ : BufTy).Contents (Elt Ideal)) :
    (⟨S1x64, .f32⟩ : BufTy).Contents (Elt Ideal) :=
  shapeCast _ (mulf (g : FVec Ideal S64 .f32) (rsK st) : FVec Ideal S64 .f32) shapeCasts_S64_S1x64
/-- The shift row. -/
private def shiftK (st : (⟨S2x64, .f32⟩ : BufTy).Contents (Elt Ideal)) (g b : (⟨S64, .f32⟩ : BufTy).Contents (Elt Ideal)) :
    (⟨S1x64, .f32⟩ : BufTy).Contents (Elt Ideal) :=
  shapeCast _ (subf (b : FVec Ideal S64 .f32) (mulf (mulf (meanK st) g) (rsK st)) : FVec Ideal S64 .f32) shapeCasts_S64_S1x64

private theorem meanK_apply (st : (⟨S2x64, .f32⟩ : BufTy).Contents (Elt Ideal)) (k : Fin 64) :
    (meanK st : S64.Idx → EReal) (ix1 k) = Ideal.div ((st : S2x64.Idx → EReal) (ix2 0 k)) Spec.nW := by
  show Ideal.div (shapeCast S64 (extractStridedSlice S1x64 ![0, 0] (st : S2x64.Idx → EReal) slices_S2x64_S1x64_0_0)
      shapeCasts_S1x64_S64 (ix1 k))
    (broadcastInDim S64 ![] bcast_S_S64 (constant (F := Ideal) S_ .f32 0x47C35000#32) (ix1 k)) = _
  rw [shapeCast_1a_a_apply _ shapeCasts_S1x64_S64 k, slice2_axis0_apply 0 _ slices_S2x64_S1x64_0_0 0 k 0 rfl,
    broadcastInDim_apply _ bcast_S_S64 _ (ix1 k) ix0 (fun a => a.elim0)]
  rfl

private theorem sqK_apply (st : (⟨S2x64, .f32⟩ : BufTy).Contents (Elt Ideal)) (k : Fin 64) :
    (sqK st : S64.Idx → EReal) (ix1 k) = Ideal.div ((st : S2x64.Idx → EReal) (ix2 1 k)) Spec.nW := by
  show Ideal.div (shapeCast S64 (extractStridedSlice S1x64 ![1, 0] (st : S2x64.Idx → EReal) slices_S2x64_S1x64_1_0)
      shapeCasts_S1x64_S64 (ix1 k))
    (broadcastInDim S64 ![] bcast_S_S64 (constant (F := Ideal) S_ .f32 0x47C35000#32) (ix1 k)) = _
  rw [shapeCast_1a_a_apply _ shapeCasts_S1x64_S64 k, slice2_axis0_apply 1 _ slices_S2x64_S1x64_1_0 0 k 1 rfl,
    broadcastInDim_apply _ bcast_S_S64 _ (ix1 k) ix0 (fun a => a.elim0)]
  rfl

private theorem rsK_apply (st : (⟨S2x64, .f32⟩ : BufTy).Contents (Elt Ideal)) (k : Fin 64) :
    (rsK st : S64.Idx → EReal) (ix1 k)
      = Ideal.rsqrt ((Ideal.div ((st : S2x64.Idx → EReal) (ix2 1 k)) Spec.nW
          - Ideal.div ((st : S2x64.Idx → EReal) (ix2 0 k)) Spec.nW * Ideal.div ((st : S2x64.Idx → EReal) (ix2 0 k)) Spec.nW)
          + Spec.epsW) := by
  show Ideal.rsqrt (((sqK st : S64.Idx → EReal) (ix1 k)
      - (meanK st : S64.Idx → EReal) (ix1 k) * (meanK st : S64.Idx → EReal) (ix1 k))
      + broadcastInDim S64 ![] bcast_S_S64 (constant (F := Ideal) S_ .f32 0x3727C5AC#32) (ix1 k)) = _
  rw [sqK_apply, meanK_apply, broadcastInDim_apply _ bcast_S_S64 _ (ix1 k) ix0 (fun a => a.elim0)]
  rfl

private theorem scaleK_apply (st : (⟨S2x64, .f32⟩ : BufTy).Contents (Elt Ideal))
    (g : (⟨S64, .f32⟩ : BufTy).Contents (Elt Ideal)) (k : Fin 64) :
    (scaleK st g : S1x64.Idx → EReal) (ix2 0 k) = (g : S64.Idx → EReal) (ix1 k) * (rsK st : S64.Idx → EReal) (ix1 k) := by
  unfold scaleK
  exact shapeCast_a_1a_apply _ shapeCasts_S64_S1x64 0 k

private theorem shiftK_apply (st : (⟨S2x64, .f32⟩ : BufTy).Contents (Elt Ideal))
    (g b : (⟨S64, .f32⟩ : BufTy).Contents (Elt Ideal)) (k : Fin 64) :
    (shiftK st g b : S1x64.Idx → EReal) (ix2 0 k)
      = (b : S64.Idx → EReal) (ix1 k)
        - ((meanK st : S64.Idx → EReal) (ix1 k) * (g : S64.Idx → EReal) (ix1 k)) * (rsK st : S64.Idx → EReal) (ix1 k) := by
  unfold shiftK
  exact shapeCast_a_1a_apply _ shapeCasts_S64_S1x64 0 k

/-- γ is, at the first region's exit, as launched: neither the first stretch nor the region writes it. -/
private theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- β is, at the first region's exit, as launched: neither the first stretch nor the region writes it. -/
private theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The gate matrix is, at the first region's exit, as launched: neither the first stretch nor the region writes it. -/
private theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The second region's first operand is the first region's first result, untouched by the host operations between. -/
theorem V3_v26_0 (c : Dev nD) :
    (V3 m ρ c main_v26_0 : S100000x64.Idx → EReal) = ((dat0 (V1 m ρ) c).arrAt 4 cfg0.N : S100000x64.Idx → EReal) := by
  have e : W3 m ρ c (Proc.devRef .tc main_v26_0) = W2 m ρ c (Proc.devRef .tc main_v26_0) :=
    StableHlo.after_of_forall_not_mem (b := Proc.devRef .tc main_v26_0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact e.trans (W2_arr m ρ c 4)

/-- The scale row: γ times the reciprocal root of (mean of squares − square of mean + ε). -/
theorem V3_v41 (c : Dev nD) (k : Fin 64) :
    (V3 m ρ c main_v41 : S1x64.Idx → EReal) (ix2 0 k)
      = gam m c (ix1 k)
        * Ideal.rsqrt ((Ideal.div (stats m ρ c (ix2 1 k)) Spec.nW
            - Ideal.div (stats m ρ c (ix2 0 k)) Spec.nW * Ideal.div (stats m ρ c (ix2 0 k)) Spec.nW) + Spec.epsW) := by
  have e : (V3 m ρ c main_v41 : S1x64.Idx → EReal)
      = scaleK (W2 m ρ c (Proc.devRef .tc main_v26_1)) (W2 m ρ c (Proc.devRef .tc main_arg4)) := by
    show StableHlo.after hostOps1 (W2 m ρ c) (Proc.devRef .tc main_v41) = _
    after_results_simp <;> rfl
  rw [e, W2_arg4 m ρ c, show W2 m ρ c (Proc.devRef .tc main_v26_1) = (dat0 (V1 m ρ) c).arrAt 5 cfg0.N from W2_arr m ρ c 5,
    scaleK_apply, rsK_apply]

/-- The shift row: β less (mean · γ) times the same reciprocal root. -/
theorem V3_v45 (c : Dev nD) (k : Fin 64) :
    (V3 m ρ c main_v45 : S1x64.Idx → EReal) (ix2 0 k)
      = bet m c (ix1 k)
        - (Ideal.div (stats m ρ c (ix2 0 k)) Spec.nW * gam m c (ix1 k))
          * Ideal.rsqrt ((Ideal.div (stats m ρ c (ix2 1 k)) Spec.nW
            - Ideal.div (stats m ρ c (ix2 0 k)) Spec.nW * Ideal.div (stats m ρ c (ix2 0 k)) Spec.nW) + Spec.epsW) := by
  have e : (V3 m ρ c main_v45 : S1x64.Idx → EReal)
      = shiftK (W2 m ρ c (Proc.devRef .tc main_v26_1)) (W2 m ρ c (Proc.devRef .tc main_arg4))
          (W2 m ρ c (Proc.devRef .tc main_arg5)) := by
    show StableHlo.after hostOps1 (W2 m ρ c) (Proc.devRef .tc main_v45) = _
    after_results_simp <;> rfl
  rw [e, W2_arg4 m ρ c, W2_arg5 m ρ c,
    show W2 m ρ c (Proc.devRef .tc main_v26_1) = (dat0 (V1 m ρ) c).arrAt 5 cfg0.N from W2_arr m ρ c 5,
    shiftK_apply, rsK_apply, meanK_apply]

/-- The gate matrix reaches the second region as launched (a change of float format is the identity here). -/
theorem V3_v46 (c : Dev nD) (k q : Fin 64) :
    (V3 m ρ c main_v46 : S64x64.Idx → EReal) (ix2 k q)
      = (m ((c : Thread nD τ).loc main_arg6) : S64x64.Idx → EReal) (ix2 k q) := by
  have e : (V3 m ρ c main_v46 : S64x64.Idx → EReal)
      = (truncf (F := Ideal) (φ := .f32) .bf16 (W2 m ρ c (Proc.devRef .tc main_arg6) : S64x64.Idx → EReal)
          bitsLt_bf16_f32 : S64x64.Idx → EReal) := by
    show StableHlo.after hostOps1 (W2 m ρ c) (Proc.devRef .tc main_v46) = _
    after_results_simp <;> rfl
  -- the change of format is the identity
  rw [e, W2_arg6 m ρ c]
  rfl

end Cert.KernelIdeal.Host

end
-- ==== Proof.KValue.lean ====
/-
  The kernel program's result as one expression of the launch memory.

  The result buffer ends at what the second region writes; that region gates H · scale + shift, where H is what the
  first region wrote (the linear layer of the launched features, their aggregate, the transposed weights and the bias)
  and scale and shift are computed between the regions from the first region's accumulator, whose rows are the column
  sums of H and of H². Put together, the result is the gate of the normalised layer with the variance taken as
  E[h²] − E[h]² and the scale and shift folded first.
-/
import proofs.«160966_j59407987638626_1_alg».proof.Proof.KRun
import proofs.«160966_j59407987638626_1_alg».proof.Proof.Region0
import proofs.«160966_j59407987638626_1_alg».proof.Proof.Region1
import proofs.«160966_j59407987638626_1_alg».proof.Proof.Host

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The launched arrays under literal types. -/
abbrev x0 (c : Dev nD) : S100000x64.Idx → EReal := m ((c : Thread nD τ).loc main_arg0)
abbrev x1 (c : Dev nD) : (⟨S2x1200000, .i32⟩ : BufTy).Contents (Elt Ideal) := m ((c : Thread nD τ).loc main_arg1)
abbrev x2 (c : Dev nD) : S64x64.Idx → EReal := m ((c : Thread nD τ).loc main_arg2)
abbrev x3 (c : Dev nD) : S64.Idx → EReal := m ((c : Thread nD τ).loc main_arg3)
abbrev x4 (c : Dev nD) : S64.Idx → EReal := m ((c : Thread nD τ).loc main_arg4)
abbrev x5 (c : Dev nD) : S64.Idx → EReal := m ((c : Thread nD τ).loc main_arg5)
abbrev x6 (c : Dev nD) : S64x64.Idx → EReal := m ((c : Thread nD τ).loc main_arg6)

/-- The linear layer of the launched arrays, the aggregate in this program's spelling. -/
def HK (c : Dev nD) : Spec.Rows :=
  Spec.lin (fun r k => x0 m c (ix2 r k)) (fun r k => Host.aggK (x0 m c) (x1 m c) (ix2 r k))
    (fun k q => x2 m c (ix2 q k)) (fun q => x3 m c (ix1 q))

/-- What the first region finds is the launched arrays through the first host stretch. -/
theorem Hlin_V1 (c : Dev nD) : R0.Hlin (V1 m ρ) c = HK m c := by
  unfold R0.Hlin HK R0.Xm R0.Am R0.Wt R0.bias
  rw [Host.V1_arg0 m ρ c, Host.V1_v22 m ρ c]
  congr 1
  · funext k q; exact Host.V1_v24 m ρ c k q
  · funext q; exact Host.V1_v25 m ρ c q

/-- What the second region gates is the folded normalisation of that layer. -/
theorem scaled_V3 (c : Dev nD) :
    (fun r k => R1.Hm (V3 m ρ) c r k * R1.scale (V3 m ρ) c k + R1.shift (V3 m ρ) c k)
      = Spec.hbnK (HK m c) (fun k => x4 m c (ix1 k)) (fun k => x5 m c (ix1 k)) := by
  funext r k
  have hH : ∀ r k, R1.Hm (V3 m ρ) c r k = HK m c r k := fun r k => by
    unfold R1.Hm
    rw [Host.V3_v26_0 m ρ c, R0.hlin_final (V1 m ρ) c (ix2 r k), Hlin_V1 m ρ c]
  have hs0 : ∀ q, Host.stats m ρ c (ix2 0 q) = ∑ r : Fin 100000, HK m c r q := fun q => by
    rw [← Hlin_V1 m ρ c]; exact R0.stats_final_sum (V1 m ρ) c q
  have hs1 : ∀ q, Host.stats m ρ c (ix2 1 q) = ∑ r : Fin 100000, HK m c r q * HK m c r q := fun q => by
    rw [← Hlin_V1 m ρ c]; exact R0.stats_final_sumsq (V1 m ρ) c q
  unfold R1.scale R1.shift
  rw [hH, Host.V3_v41 m ρ c k, Host.V3_v45 m ρ c k, hs0, hs1]
  rfl

/-- The gate matrix the second region finds is the launched one. -/
theorem Cm_V3 (c : Dev nD) : R1.Cm (V3 m ρ) c = fun k q => x6 m c (ix2 k q) := by
  funext k q; exact Host.V3_v46 m ρ c k q

/-- The result buffer's last contents at an index. -/
theorem result_apply (c : Dev nD) (i : S100000x64.Idx) :
    (W4 m ρ c (Proc.devRef .tc main_v47) : S100000x64.Idx → EReal) i
      = Spec.gate (Spec.hbnK (HK m c) (fun k => x4 m c (ix1 k)) (fun k => x5 m c (ix1 k)))
          (fun k q => x6 m c (ix2 k q)) (i 0) (i 1) := by
  have h := W4_arr m ρ c 4
  have e : (W4 m ρ c (Proc.devRef .tc main_v47) : S100000x64.Idx → EReal)
      = ((dat1 (V3 m ρ) c).arrAt 4 cfg1.N : S100000x64.Idx → EReal) := h
  rw [e, R1.out_final (V3 m ρ) c i, scaled_V3 m ρ c, Cm_V3 m ρ c]

end Cert.KernelIdeal.KValue

end
-- ==== Proof.RefValue.lean ====
/-
  What the reference computes, index by index: the gate of the directly normalised linear layer, the aggregate carried
  as the reference's own function of the features and the edge list and never opened.
-/
import proofs.«160966_j59407987638626_1_alg».proof.Proof.Gen.ReferenceIdeal.Run
import proofs.«160966_j59407987638626_1_alg».proof.Proof.Gen.ReferenceIdeal.Read
import proofs.«160966_j59407987638626_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read Idealize.ShloMosaic Idealize.ShloMosaic.ValueIdx

/-- The reference's linear layer, from its arguments. -/
def Href (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) : Spec.Rows :=
  Spec.lin (fun r k => x0 (ix2 r k)) (fun r k => val_main_v22 (F := Ideal) x0 x1 (ix2 r k))
    (fun k q => x2 (ix2 q k)) (fun q => x3 (ix1 q))

/-! ## The word for one -/

/-- The f32 word `0x3F800000` is the number one: sign 0, exponent 127 (the bias), fraction 0. -/
theorem ofBits_one_f32 : Ideal.ofBits .f32 0x3F800000#32 = 1 := by
  simp [Ideal.ofBits, Ideal.ieee]
  rw [← EReal.coe_mul, ← EReal.coe_one, EReal.coe_eq_coe_iff]
  norm_num

/-! ## Where each layout operation reads, at an index given by its coordinates -/

/-- The first product's left operand at row `r`, contraction index `k`. -/
theorem lidx25_ix (r : Fin 100000) (c k : Fin 64) : lidx_main_v25 (ix2 r c) k = ix2 r k :=
  funext fun a => Fin.ext (by match a with | ⟨0, _⟩ => rfl | ⟨1, _⟩ => rfl)

/-- The first product's right operand is the transposed weight: entry `(k, c)` of the transpose is entry `(c, k)`. -/
theorem ridx25_ix (r : Fin 100000) (c k : Fin 64) : idx_main_v24 (ridx_main_v25 (ix2 r c) k) = ix2 c k :=
  funext fun a => Fin.ext (by match a with | ⟨0, _⟩ => rfl | ⟨1, _⟩ => rfl)

/-- The bias row, broadcast over the rows, reads its column. -/
theorem idx27_ix (r : Fin 100000) (c : Fin 64) : idx_main_v26 (idx_main_v27 (ix2 r c)) = ix1 c :=
  funext fun a => Fin.ext (by match a with | ⟨0, _⟩ => rfl)

/-- The first column sum runs over the rows of its column. -/
theorem idx29_ix (c : Fin 64) (k : Fin 100000) : idx_main_v29 (ix1 c) k = ix2 k c :=
  funext fun a => Fin.ext (by match a with | ⟨0, _⟩ => rfl | ⟨1, _⟩ => rfl)

/-- The mean row, broadcast over the rows, reads its column (first use: inside the variance). -/
theorem idx33_ix (r : Fin 100000) (c : Fin 64) : idx_main_v32 (idx_main_v33 (ix2 r c)) = ix1 c :=
  funext fun a => Fin.ext (by match a with | ⟨0, _⟩ => rfl)

/-- The second column sum runs over the rows of its column. -/
theorem idx36_ix (c : Fin 64) (k : Fin 100000) : idx_main_v36 (ix1 c) k = ix2 k c :=
  funext fun a => Fin.ext (by match a with | ⟨0, _⟩ => rfl | ⟨1, _⟩ => rfl)

/-- The mean row, broadcast over the rows, reads its column (second use: the centring). -/
theorem idx40_ix (r : Fin 100000) (c : Fin 64) : idx_main_v39 (idx_main_v40 (ix2 r c)) = ix1 c :=
  funext fun a => Fin.ext (by match a with | ⟨0, _⟩ => rfl)

/-- The reciprocal-root row, broadcast over the rows, reads its column. -/
theorem idx46_ix (r : Fin 100000) (c : Fin 64) : idx_main_v45 (idx_main_v46 (ix2 r c)) = ix1 c :=
  funext fun a => Fin.ext (by match a with | ⟨0, _⟩ => rfl)

/-- The scale row, broadcast over the rows, reads its column. -/
theorem idx49_ix (r : Fin 100000) (c : Fin 64) : idx_main_v48 (idx_main_v49 (ix2 r c)) = ix1 c :=
  funext fun a => Fin.ext (by match a with | ⟨0, _⟩ => rfl)

/-- The shift row, broadcast over the rows, reads its column. -/
theorem idx52_ix (r : Fin 100000) (c : Fin 64) : idx_main_v51 (idx_main_v52 (ix2 r c)) = ix1 c :=
  funext fun a => Fin.ext (by match a with | ⟨0, _⟩ => rfl)

/-- The gate product's left operand at row `r`, contraction index `k`. -/
theorem lidx54_ix (r : Fin 100000) (c k : Fin 64) : lidx_main_v54 (ix2 r c) k = ix2 r k :=
  funext fun a => Fin.ext (by match a with | ⟨0, _⟩ => rfl | ⟨1, _⟩ => rfl)

/-- The gate product's right operand at contraction index `k`, column `c`. -/
theorem ridx54_ix (r : Fin 100000) (c k : Fin 64) : ridx_main_v54 (ix2 r c) k = ix2 k c :=
  funext fun a => Fin.ext (by match a with | ⟨0, _⟩ => rfl | ⟨1, _⟩ => rfl)

/-! ## The stages, each at an index given by its coordinates -/

/-- The linear layer: `(X + A) Wᵀ + b` at row `r`, column `c`. -/
theorem lin_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (r : Fin 100000) (c : Fin 64) :
    val_main_v28 (F := Ideal) x0 x1 x2 x3 (ix2 r c) = Href x0 x1 x2 x3 r c := by
  rw [val_main_v28_apply, val_main_v25_apply, val_main_v27_apply, val_main_v26_apply, idx27_ix]
  simp only [val_main_v23_apply, val_main_v24_apply, lidx25_ix, ridx25_ix, Ideal.addf_def]
  rfl

/-- The column means of the linear layer. -/
theorem mean_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (c : Fin 64) :
    val_main_v31 (F := Ideal) x0 x1 x2 x3 (ix1 c) = Spec.mean (Href x0 x1 x2 x3) c := by
  rw [val_main_v31_apply, val_main_v29_apply, val_main_v30_apply, val_main_cst_5_apply, val_main_cst_4_apply]
  simp only [idx29_ix, lin_apply, Ideal.hostDivf_def, Ideal.ofBits_def, Ideal.ofBits_zero_f32, zero_add]
  rfl

/-- The column variances of the linear layer, as the mean of the squared deviations. -/
theorem var_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (c : Fin 64) :
    val_main_v38 (F := Ideal) x0 x1 x2 x3 (ix1 c) = Spec.varR (Href x0 x1 x2 x3) c := by
  rw [val_main_v38_apply, val_main_v36_apply, val_main_v37_apply, val_main_cst_7_apply, val_main_cst_6_apply]
  simp only [idx36_ix, val_main_v35_apply, val_main_v34_apply, val_main_v33_apply, val_main_v32_apply, idx33_ix,
    lin_apply, mean_apply, Ideal.hostDivf_def, Ideal.mulf_def, Ideal.subf_def, Ideal.ofBits_def,
    Ideal.ofBits_zero_f32, zero_add]
  rfl

/-- The normalised layer: `(h − μ) · s · γ + β` at row `r`, column `c`. -/
theorem hbn_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 x5 : (⟨S64, .f32⟩ : BufTy).Contents (Elt Ideal)) (r : Fin 100000) (c : Fin 64) :
    val_main_v53 (F := Ideal) x0 x1 x2 x3 x4 x5 (ix2 r c)
      = Spec.hbnR (Href x0 x1 x2 x3) (fun k => x4 (ix1 k)) (fun k => x5 (ix1 k)) r c := by
  rw [val_main_v53_apply, val_main_v50_apply, val_main_v47_apply, val_main_v41_apply,
    val_main_v52_apply, val_main_v51_apply, idx52_ix, val_main_v49_apply, val_main_v48_apply, idx49_ix,
    val_main_v46_apply, val_main_v45_apply, idx46_ix, val_main_v44_apply, val_main_v43_apply,
    val_main_v42_apply, val_main_cst_8_apply, val_main_v40_apply, val_main_v39_apply, idx40_ix,
    lin_apply, mean_apply, var_apply]
  simp only [Ideal.addf_def, Ideal.mulf_def, Ideal.subf_def, Ideal.hostUnary_rsqrt_def, Ideal.ofBits_def]
  rfl

/-- The reference's result at an index. -/
theorem result_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 x5 : (⟨S64, .f32⟩ : BufTy).Contents (Elt Ideal))
    (x6 : (⟨S64x64, .f32⟩ : BufTy).Contents (Elt Ideal)) (i : S100000x64.Idx) :
    val_main_v61 (F := Ideal) x0 x1 x2 x3 x4 x5 x6 i
      = Spec.gate (Spec.hbnR (Href x0 x1 x2 x3) (fun k => x4 (ix1 k)) (fun k => x5 (ix1 k)))
          (fun k q => x6 (ix2 k q)) (i 0) (i 1) := by
  obtain ⟨r, c, rfl⟩ : ∃ (r : Fin 100000) (c : Fin 64), i = ix2 r c := ⟨i 0, i 1, eq_ix2 i⟩
  show val_main_v61 (F := Ideal) x0 x1 x2 x3 x4 x5 x6 (ix2 r c)
      = Spec.gate (Spec.hbnR (Href x0 x1 x2 x3) (fun k => x4 (ix1 k)) (fun k => x5 (ix1 k)))
          (fun k q => x6 (ix2 k q)) r c
  rw [val_main_v61_apply, val_main_v60_apply, val_main_v59_apply, val_main_cst_10_apply, val_main_v58_apply,
    val_main_v57_apply, val_main_cst_9_apply, val_main_v56_apply, val_main_v55_apply, val_main_v54_apply]
  simp only [lidx54_ix, ridx54_ix, hbn_apply, Ideal.hostDivf_def, Ideal.hostUnary_exp_def, Ideal.hostNegf_def,
    Ideal.negf_def, Ideal.addf_def, Ideal.mulf_def, Ideal.ofBits_def, ofBits_one_f32]
  rfl

end Cert.ReferenceIdeal.RefValue

end
-- ==== Proof.AggEq.lean ====
/-
  The two programs compute the aggregate by the same host operations: the kernel program's spelling and the
  reference's are one function of the features and the edge list.
-/
import proofs.«160966_j59407987638626_1_alg».proof.Proof.Host
import proofs.«160966_j59407987638626_1_alg».proof.Proof.Gen.ReferenceIdeal.Read

set_option maxRecDepth 16384

noncomputable section

namespace Cert.AggEq

open Idealize.ShloMosaic

theorem aggK_eq (x0 : (⟨Cert.KernelIdeal.S100000x64, .f32⟩ : BufTy).Contents (Elt Ideal))
    (x1 : (⟨Cert.KernelIdeal.S2x1200000, .i32⟩ : BufTy).Contents (Elt Ideal)) :
    Cert.KernelIdeal.Host.aggK x0 x1 = Cert.ReferenceIdeal.Read.val_main_v22 (F := Ideal) x0 x1 := rfl

end Cert.AggEq

end
-- ==== Proof.Finite.lean ====
/-
  Which entries are real numbers.

  Under the precondition every entry of every float input is a real number. The aggregate's entries are then real: a
  gathered row is a row of the features, a scatter-add of real updates onto zeros is a finite sum of reals, the edge
  counts are finite sums of ones, and the divisor — a count, or one where the count is below one — is a real number
  not below one. Hence the linear layer's entries are real: finite sums of products of reals.
-/
import proofs.«160966_j59407987638626_1_alg».proof.Proof.Gen.ReferenceIdeal.Read
import proofs.«160966_j59407987638626_1_alg».proof.Proof.Gen.Pre_finite_inputs
import proofs.«160966_j59407987638626_1_alg».proof.Proof.Spec
import Idealize.ShloMosaic.Lib.ValueIdx
import Idealize.ShloMosaic.Lib.ReduceAll
import Idealize.ShloMosaic.PureOps.Ideal.Laws

set_option maxRecDepth 16384

noncomputable section

namespace Cert.Finite

open Idealize.ShloMosaic Idealize.ShloMosaic.ValueIdx Cert.Spec

/-! ## Closure of the real numbers under the operations met here -/

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} (s : Finset ι) (f : ι → EReal) (h : ∀ i ∈ s, IsReal (f i)) : IsReal (∑ i ∈ s, f i) := by
  exact Finset.sum_induction f IsReal (fun _ _ => IsReal.add) IsReal.zero h
theorem IsReal.neg {x : EReal} (hx : IsReal x) : IsReal (-x) := by
  obtain ⟨a, rfl⟩ := hx
  exact ⟨-a, (EReal.coe_neg a).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
/-- The larger of two real numbers is one of them. -/
theorem isReal_max {x y : EReal} (hx : IsReal x) (hy : IsReal y) : IsReal (max x y) := by
  rcases max_choice x y with h | h <;> rw [h] <;> assumption
/-- The quotient of a real number by a nonzero real number is their quotient in the reals. -/
theorem IsReal.div {x y : EReal} (hx : IsReal x) (hy : IsReal y) (h0 : y ≠ 0) : IsReal (Ideal.div x y) := by
  obtain ⟨a, rfl⟩ := hx
  obtain ⟨b, rfl⟩ := hy
  have hb : b ≠ 0 := fun e => h0 (by rw [e]; rfl)
  rw [Ideal.div_coe hb]
  exact IsReal.mul ⟨a, rfl⟩ ⟨1 / b, rfl⟩
/-- The larger of a real number and one is a real number not below one. -/
theorem IsReal.max_one {x : EReal} (hx : IsReal x) : ∃ r : ℝ, 1 ≤ r ∧ max x 1 = (r : EReal) := by
  obtain ⟨a, rfl⟩ := hx
  rcases le_total a 1 with h | h
  · exact ⟨1, le_refl _, by rw [max_eq_right (by exact_mod_cast h)]; rfl⟩
  · exact ⟨a, h, by rw [max_eq_left (by exact_mod_cast h)]⟩

/-- The word 0x7F800000 is +∞. -/
theorem ofBits_inf : Ideal.ofBits .f32 0x7F800000#32 = ⊤ := by simp [Ideal.ofBits, Ideal.ieee]
/-- The word 0x3F800000 is one. -/
theorem ofBits_one : Ideal.ofBits .f32 0x3F800000#32 = 1 := by
  rw [show (1 : EReal) = ((1 : ℝ) : EReal) by norm_cast]
  simp [Ideal.ofBits, Ideal.ieee, -EReal.coe_mul]; norm_num

/-- An extended real whose absolute value is below +∞ is a real number. -/
theorem real_of_abs_lt_top (x : EReal) (h : max x (-x) < ⊤) : IsReal x := by
  induction x using EReal.rec with
  | bot => simp at h
  | coe r => exact ⟨r, rfl⟩
  | top => simp at h

/-- The comparison |x| < +∞ that came out true says x is a real number. -/
theorem real_of_cmp (x : Ideal .f32)
    (h : FloatOps.cmpf .olt (FloatOps.hostAbsf x) (FloatOps.ofBits (F := Ideal) .f32 0x7F800000#32) = 1#1) : IsReal x := by
  have h' : BitVec.ofBool (decide (max (x : EReal) (-(x : EReal)) < Ideal.ofBits .f32 0x7F800000#32)) = 1#1 := h
  rw [ofBits_inf] at h'
  refine real_of_abs_lt_top x ?_
  by_contra hn
  rw [decide_eq_false hn] at h'
  exact absurd h' (by decide)

/-! ## The precondition -/

/-- One conjunct of the precondition: "every |x i| < +∞" that came out true says every entry of x is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu j = 1#1) :
    ∀ i, IsReal (x i) := by
  intro i
  haveI : Subsingleton Cert.Pre_finite_inputs.S_.Idx := ⟨fun a b => funext fun d => d.elim0⟩
  exact real_of_cmp (x i) (Host.reduce_andi_all _ _ hr hu j e i)

/-- Under the precondition every float input is real-valued. -/
theorem real_of_pre [Cert.Pre_finite_inputs.Facts]
    (x0 : FVec Ideal Cert.Pre_finite_inputs.S100000x64 .f32) (x1 : IVec Cert.Pre_finite_inputs.S2x1200000 32)
    (x2 : FVec Ideal Cert.Pre_finite_inputs.S64x64 .f32) (x3 x4 x5 : FVec Ideal Cert.Pre_finite_inputs.S64 .f32)
    (x6 : FVec Ideal Cert.Pre_finite_inputs.S64x64 .f32)
    (h : Cert.Pre_finite_inputs.fn (F := Ideal) x0 x1 x2 x3 x4 x5 x6 = fun _ => 1#1) :
    (∀ i, IsReal (x0 i)) ∧ (∀ i, IsReal (x2 i)) ∧ (∀ i, IsReal (x3 i)) ∧ (∀ i, IsReal (x4 i))
      ∧ (∀ i, IsReal (x5 i)) ∧ (∀ i, IsReal (x6 i)) := by
  have h1 := congrFun h ValueIdx.ix0
  dsimp only [Cert.Pre_finite_inputs.fn, Cert.Pre_finite_inputs.fn_part1, andi] at h1
  obtain ⟨h1, h6⟩ := IntOp.andi_eq_one.1 h1
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  exact ⟨all_real x0 _ _ _ _ h1, all_real x2 _ _ _ _ h2, all_real x3 _ _ _ _ h3, all_real x4 _ _ _ _ h4,
    all_real x5 _ _ _ _ h5, all_real x6 _ _ _ _ h6⟩

/-! ## The aggregate and the linear layer -/

/-- A scatter-add of real updates onto real entries has real entries: each is an entry plus a finite sum of updates. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) :
    ∀ i, IsReal (Host.scatterAdd (F := Ideal) d x idx upd i) := by
  intro i
  unfold Host.scatterAdd
  rw [Ideal.hostScatterAdd_def]
  unfold Ideal.hostScatterAdd
  exact IsReal.add (hx i) (IsReal.sum _ _ (fun j _ => hu j))

open Cert.ReferenceIdeal in
/-- The divisor at a node (its in-degree, or one where that is below one) is a real number not below one. -/
theorem count_real (x1 : (⟨S2x1200000, .i32⟩ : BufTy).Contents (Elt Ideal)) (k : S100000.Idx) :
    ∃ r : ℝ, 1 ≤ r ∧ Read.val_main_v19 (F := Ideal) x1 k = (r : EReal) := by
  rw [Read.val_main_v19_apply, Ideal.maximumf_def, Read.val_main_v18_apply, Read.val_main_cst_3_apply, Ideal.ofBits_def,
    ofBits_one]
  refine IsReal.max_one ?_
  unfold Read.val_main_v17
  refine scatterAdd_real _ _ _ _ (fun i => ?_) (fun j => ?_) k
  · rw [Read.val_main_v15_apply, Read.val_main_cst_2_apply, Ideal.ofBits_def, Ideal.ofBits_zero_f32]
    exact IsReal.zero
  · rw [Read.val_main_v14_apply, Read.val_main_cst_1_apply, Ideal.ofBits_def, ofBits_one]
    exact IsReal.one

/-- The aggregate of real-valued features is real-valued, whatever the edge list. -/
theorem agg_real (x0 : (⟨Cert.ReferenceIdeal.S100000x64, .f32⟩ : BufTy).Contents (Elt Ideal))
    (x1 : (⟨Cert.ReferenceIdeal.S2x1200000, .i32⟩ : BufTy).Contents (Elt Ideal)) (h0 : ∀ i, IsReal (x0 i)) :
    ∀ i, IsReal (Cert.ReferenceIdeal.Read.val_main_v22 (F := Ideal) x0 x1 i) := by
  intro i
  rw [Cert.ReferenceIdeal.Read.val_main_v22_apply, Ideal.hostDivf_def, Cert.ReferenceIdeal.Read.val_main_v21_apply,
    Cert.ReferenceIdeal.Read.val_main_v20_apply]
  obtain ⟨r, hr, e⟩ := count_real x1 (Cert.ReferenceIdeal.Read.idx_main_v20 (Cert.ReferenceIdeal.Read.idx_main_v21 i))
  rw [e]
  refine IsReal.div ?_ ⟨r, rfl⟩ (fun e0 => ?_)
  · unfold Cert.ReferenceIdeal.Read.val_main_v13
    refine scatterAdd_real _ _ _ _ (fun k => ?_) (fun j => ?_) i
    · rw [Cert.ReferenceIdeal.Read.val_main_v11_apply, Cert.ReferenceIdeal.Read.val_main_cst_apply, Ideal.ofBits_def,
        Ideal.ofBits_zero_f32]
      exact IsReal.zero
    · unfold Cert.ReferenceIdeal.Read.val_main_v10 Host.gather
      exact h0 _
  · have : r = 0 := by exact_mod_cast e0
    rw [this] at hr
    exact absurd hr (by norm_num)

/-- The linear layer of real-valued operands is real-valued. -/
theorem lin_real (X A : Rows) (Wt : Sq) (b : Row) (hX : ∀ r k, IsReal (X r k)) (hA : ∀ r k, IsReal (A r k))
    (hW : ∀ k q, IsReal (Wt k q)) (hb : ∀ q, IsReal (b q)) : ∀ r q, IsReal (lin X A Wt b r q) := by
  intro r q
  unfold lin
  exact IsReal.add (IsReal.sum _ _ (fun k _ => IsReal.mul (IsReal.add (hX r k) (hA r k)) (hW k q))) (hb q)

end Cert.Finite

end
-- ==== Proof.Algebra.lean ====
/-
  The one law that joins the two programs: for a real-valued layer H and real γ, β, the normalisation with the variance
  taken as E[h²] − E[h]² and the scale and shift folded first equals the direct one with the variance E[(h − μ)²].

  Over the reals Σ (h − μ)² = Σ h² − n μ² when μ = (Σ h)/n, so the two variances agree; the variance is a mean of
  squares, so it is not negative, ε is positive, and the reciprocal root of their sum is a real number; then
  h (γ s) + (β − μ γ s) = (h − μ) s γ + β is an identity of real numbers.
-/
import proofs.«160966_j59407987638626_1_alg».proof.Proof.Spec
import Idealize.ShloMosaic.PureOps.Ideal.Laws
import Mathlib.Algebra.BigOperators.Ring.Finset
import Mathlib.Analysis.SpecialFunctions.Pow.Real

noncomputable section

namespace Cert.Algebra

open Idealize.ShloMosaic Cert.Spec

/-- The divisor word is the real number 100000. -/
theorem nW_eq : nW = ((100000 : ℝ) : EReal) := by
  unfold nW
  simp [Ideal.ofBits, Ideal.ieee, -EReal.coe_mul]; norm_num

/-- The ε word is a positive real number. -/
theorem epsW_pos : ∃ e : ℝ, 0 < e ∧ epsW = (e : EReal) := by
  refine ⟨(10995116 : ℝ) * (2 : ℝ) ^ (-40 : ℤ), by positivity, ?_⟩
  unfold epsW
  simp [Ideal.ofBits, Ideal.ieee, -EReal.coe_mul]

/-- A finite sum of coercions of reals is the coercion of the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over the reals, with μ the mean of f over the 100000 rows: E[f²] − μ² = E[(f − μ)²]. -/
theorem var_real (f : Fin 100000 → ℝ) (μ : ℝ) (hμ : μ = (∑ r, f r) / 100000) :
    (∑ r, f r * f r) / 100000 - μ * μ = (∑ r, (f r - μ) * (f r - μ)) / 100000 := by
  have hS : ∑ r, f r = 100000 * μ := by rw [hμ]; ring
  have h1 : ∑ r, (f r - μ) * (f r - μ) = (∑ r, f r * f r) - 2 * μ * (∑ r, f r) + 100000 * (μ * μ) := by
    have h2 : ∀ r, (f r - μ) * (f r - μ) = f r * f r - 2 * μ * f r + μ * μ := fun r => by ring
    simp only [h2]
    rw [Finset.sum_add_distrib, Finset.sum_sub_distrib, ← Finset.mul_sum, Finset.sum_const, Finset.card_univ,
      Fintype.card_fin, nsmul_eq_mul]
    norm_num
  rw [h1, hS]; ring

/-- The mean of squared deviations is not negative. -/
theorem var_nonneg (f : Fin 100000 → ℝ) (μ : ℝ) : 0 ≤ (∑ r, (f r - μ) * (f r - μ)) / 100000 :=
  div_nonneg (Finset.sum_nonneg fun r _ => mul_self_nonneg _) (by norm_num)

/-- The column mean of a real-valued layer is the coercion of the real mean. -/
theorem mean_coe (H : Rows) (h : Fin 100000 → Fin 64 → ℝ) (hh : ∀ r c, H r c = (h r c : EReal)) (c : Fin 64) :
    mean H c = (((∑ r, h r c) / 100000 : ℝ) : EReal) := by
  unfold mean
  rw [nW_eq, Ideal.div_coe (by norm_num)]
  simp only [hh]
  rw [coe_sum, ← EReal.coe_mul]
  congr 1; ring

/-- The variance E[h²] − μ² of a real-valued layer is the coercion of the real one. -/
theorem varK_coe (H : Rows) (h : Fin 100000 → Fin 64 → ℝ) (hh : ∀ r c, H r c = (h r c : EReal)) (c : Fin 64) :
    varK H c = (((∑ r, h r c * h r c) / 100000
      - ((∑ r, h r c) / 100000) * ((∑ r, h r c) / 100000) : ℝ) : EReal) := by
  unfold varK
  rw [mean_coe H h hh c, nW_eq, Ideal.div_coe (by norm_num)]
  simp only [hh, ← EReal.coe_mul]
  rw [coe_sum, ← EReal.coe_mul, ← EReal.coe_sub]
  congr 1; ring

/-- The variance E[(h − μ)²] of a real-valued layer is the coercion of the real one. -/
theorem varR_coe (H : Rows) (h : Fin 100000 → Fin 64 → ℝ) (hh : ∀ r c, H r c = (h r c : EReal)) (c : Fin 64) :
    varR H c = (((∑ r, (h r c - (∑ r, h r c) / 100000) * (h r c - (∑ r, h r c) / 100000)) / 100000 : ℝ) : EReal) := by
  unfold varR
  rw [mean_coe H h hh c, nW_eq, Ideal.div_coe (by norm_num)]
  simp only [hh, ← EReal.coe_sub, ← EReal.coe_mul]
  rw [coe_sum, ← EReal.coe_mul]
  congr 1; ring

/-- The two spellings of the normalised layer agree on a real-valued layer with real γ and β. -/
theorem hbnK_eq_hbnR (H : Rows) (γ β : Row) (hH : ∀ r c, IsReal (H r c)) (hγ : ∀ c, IsReal (γ c)) (hβ : ∀ c, IsReal (β c)) :
    hbnK H γ β = hbnR H γ β := by
  funext r c
  choose h hh using hH
  choose g hg using hγ
  choose b hb using hβ
  obtain ⟨e, he, hee⟩ := epsW_pos
  have hm := mean_coe H h hh c
  have hvR := varR_coe H h hh c
  have hvK := varK_coe H h hh c
  rw [var_real (fun r => h r c) _ rfl] at hvK
  have hv0 := var_nonneg (fun r => h r c) ((∑ r, h r c) / 100000)
  generalize (∑ r, h r c) / 100000 = μ at hm hvR hvK hv0
  generalize (∑ r, (h r c - μ) * (h r c - μ)) / 100000 = v at hvR hvK hv0
  have hpos : 0 < v + e := by linarith
  have hs : Ideal.rsqrt ((v : EReal) + (e : EReal)) = (((Real.sqrt (v + e))⁻¹ : ℝ) : EReal) := by
    rw [← EReal.coe_add, Ideal.rsqrt_coe, if_neg (not_lt.mpr hpos.le), if_neg hpos.ne']
  simp only [hbnK, hbnR]
  rw [hvK, hvR, hee, hs, hm, hh r c, hg c, hb c]
  simp only [← EReal.coe_mul, ← EReal.coe_sub, ← EReal.coe_add]
  congr 1; ring

end Cert.Algebra

end
-- ==== Proof.Final.lean ====
/-
  The two programs' results are one function of the launch memory, under the precondition.

  Both are the gate of a normalised linear layer H. The layers are the same array (the aggregate is computed by the same
  host operations in both programs); H is real-valued because the inputs are (the precondition), so the two spellings
  of the normalisation agree, and the gate is the same expression of what it is given.
-/
import proofs.«160966_j59407987638626_1_alg».proof.Proof.KValue
import proofs.«160966_j59407987638626_1_alg».proof.Proof.RefValue
import proofs.«160966_j59407987638626_1_alg».proof.Proof.AggEq
import proofs.«160966_j59407987638626_1_alg».proof.Proof.Finite
import proofs.«160966_j59407987638626_1_alg».proof.Proof.Algebra

set_option maxRecDepth 16384

noncomputable section

namespace Cert.Final

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The kernel program's linear layer is the reference's. -/
theorem HK_eq_Href (c : Dev nD) :
    KValue.HK m c = Cert.ReferenceIdeal.RefValue.Href (KValue.x0 m c) (KValue.x1 m c) (KValue.x2 m c) (KValue.x3 m c) := by
  unfold KValue.HK Cert.ReferenceIdeal.RefValue.Href
  rw [Cert.AggEq.aggK_eq]

/-- Under the precondition the kernel program's last contents of its result buffer are the reference's result. -/
theorem result_eq [Cert.Pre_finite_inputs.Facts] (c : Dev nD)
    (hpre : Cert.Pre_finite_inputs.fn (F := Ideal) (KValue.x0 m c) (KValue.x1 m c) (KValue.x2 m c) (KValue.x3 m c)
      (KValue.x4 m c) (KValue.x5 m c) (KValue.x6 m c) = fun _ => 1#1) :
    (W4 m ρ c (Proc.devRef .tc main_v47) : S100000x64.Idx → EReal)
      = Cert.ReferenceIdeal.Read.val_main_v61 (F := Ideal) (KValue.x0 m c) (KValue.x1 m c) (KValue.x2 m c)
          (KValue.x3 m c) (KValue.x4 m c) (KValue.x5 m c) (KValue.x6 m c) := by
  obtain ⟨h0, h2, h3, h4, h5, -⟩ := Cert.Finite.real_of_pre _ _ _ _ _ _ _ hpre
  funext i
  rw [KValue.result_apply m ρ c i, Cert.ReferenceIdeal.RefValue.result_apply, HK_eq_Href m c]
  have hA := Cert.Finite.agg_real (KValue.x0 m c) (KValue.x1 m c) h0
  have hH : ∀ r q, Cert.Spec.IsReal (Cert.ReferenceIdeal.RefValue.Href (KValue.x0 m c) (KValue.x1 m c) (KValue.x2 m c) (KValue.x3 m c) r q) :=
    Cert.Finite.lin_real _ _ _ _ (fun r k => h0 _) (fun r k => hA _) (fun k q => h2 _) (fun q => h3 _)
  rw [Cert.Algebra.hbnK_eq_hbnR _ _ _ hH (fun k => h4 _) (fun k => h5 _)]

end Cert.Final

end
-- ==== Proof.lean ====
/-
  Graph message passing followed by a linear layer, a batch normalisation and a logistic gate, over 100000 nodes of 64
  features and 1200000 edges: the kernel program against its reference, equal as extended reals.

  Both programs form the aggregate A (each node's mean over its in-neighbours' features: a gather and two scatter-adds)
  by the same host operations, then H = (X + A) Wᵀ + b. The kernel program computes H in ten row blocks on the chip,
  accumulating the column sums of H and of H² beside it, derives the mean μ and the variance E[h²] − μ² between its two
  kernel regions, folds γ, β, μ and the reciprocal root s of the variance plus ε into a scale γ s and a shift β − μ γ s,
  and gates H · scale + shift by the logistic of its product with C. The reference normalises directly,
  (H − μ) · s · γ + β with the variance E[(h − μ)²], and gates the same way.

  The three frames are the generated ones (the reference's is its run with the result dropped). Nothing was rewritten
  on the way to the idealized kernel program. For the value claim: the kernel program's run ends with its result at the
  gate of the folded normalisation of H (the run over the two regions, each region's array read block by block, the
  host stretches read operation by operation); the reference's run ends at the gate of the direct normalisation of the
  same H; under the precondition X, W, b, γ, β are real-valued, hence so are A (finite sums of reals over a divisor
  not below one) and H, and over the reals the two variances and the two normalisations are equal.
-/
import proofs.«160966_j59407987638626_1_alg».proof.Defs
import proofs.«160966_j59407987638626_1_alg».proof.Proof.Gen.Kernel
import proofs.«160966_j59407987638626_1_alg».proof.Proof.Gen.Kernel.Skeleton
import proofs.«160966_j59407987638626_1_alg».proof.Proof.Gen.Kernel.Launch
import proofs.«160966_j59407987638626_1_alg».proof.Proof.Gen.Kernel.Points
import proofs.«160966_j59407987638626_1_alg».proof.Proof.Gen.Kernel.Frame
import proofs.«160966_j59407987638626_1_alg».proof.Proof.Gen.KernelIdeal
import proofs.«160966_j59407987638626_1_alg».proof.Proof.Gen.KernelIdeal.Skeleton
import proofs.«160966_j59407987638626_1_alg».proof.Proof.Gen.KernelIdeal.Launch
import proofs.«160966_j59407987638626_1_alg».proof.Proof.Gen.KernelIdeal.Points
import proofs.«160966_j59407987638626_1_alg».proof.Proof.Gen.KernelIdeal.Frame
import proofs.«160966_j59407987638626_1_alg».proof.Proof.Gen.ReferenceIdeal
import proofs.«160966_j59407987638626_1_alg».proof.Proof.Gen.ReferenceIdeal.Run
import proofs.«160966_j59407987638626_1_alg».proof.Proof.Gen.ReferenceIdeal.Read
import proofs.«160966_j59407987638626_1_alg».proof.Proof.Gen.Pre_finite_inputs
import proofs.«160966_j59407987638626_1_alg».proof.Proof.KRun
import proofs.«160966_j59407987638626_1_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  by
    intro m ρ m' ρ' hpre hagree
    refine ⟨fun c => Cert.KernelIdeal.Gen.W4 m ρ c (Proc.devRef .tc Cert.KernelIdeal.main_v47),
      Cert.KernelIdeal.ValueRun.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2.1, (hagree c).2.2.2.2.2.2]
    exact (@Cert.Final.result_eq m ρ Cert.Pre_finite_inputs.Gen.facts c (hpre c)).symm⟩

end Cert.Proof

end
